-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50000 : Shape := ⟨2, ![64, 50000]⟩
abbrev S1600000 : Shape := ⟨1, ![1600000]⟩
abbrev S50000 : Shape := ⟨1, ![50000]⟩
abbrev S_ : Shape := ⟨0, ![]⟩

class Facts : Prop where
  bcast_S_S64x50000 : S_.BroadcastsInDim S64x50000 (![] : Fin 0 → Fin S64x50000.rank)
  reducesTo_S64x50000_S_d0_1 : S64x50000.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg4 : IVec S1600000 32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg4 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v18 main_v21
  let main_c_8 : IVec S_ 32 := constantI S_ 32 50000#32
  let main_v23 : IVec S1600000 32 := broadcastInDim S1600000 ![] bcast_S_S1600000 main_c_8
  let main_v24 : IVec S1600000 1 := cmpi .slt main_arg4 main_v23
  let main_c_9 : IVec S_ 1 := constantI S_ 1 1#1
  let main_v25 : IVec S_ 1 := (fun x v => Host.reduce IntOp.andi x v reducesTo_S1600000_S_d0 h_S_) main_v24 main_c_9
  let main_v26 : IVec S_ 1 := andi main_v22 main_v25
  main_v26

def fn {F : FTy → Type} [FloatOps F] (main_arg0 : FVec F S64x50000 .f32) (main_arg1 : FVec F S1600000 .f32) (main_arg2 : FVec F S1600000 .f32) (main_arg3 : FVec F S50000 .f32) (main_arg4 : IVec S1600000 32) (main_arg5 : IVec S1600000 32) : IVec S_ 1 :=
  let main_v0 : FVec F S64x50000 .f32 := Host.absf main_arg0
  let main_cst : FVec F S_ .f32 := constant S_ .f32 0x7F800000#32
  let main_v1 : FVec F S64x50000 .f32 := broadcastInDim S64x50000 ![] bcast_S_S64x50000 main_cst
  let main_v2 : IVec S64x50000 1 := cmpf .olt main_v0 main_v1
  let main_c : IVec S_ 1 := constantI S_ 1 1#1
  let main_v3 : IVec S_ 1 := (fun x v => Host.reduce IntOp.andi x v reducesTo_S64x50000_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S50000 .f32 := Host.absf main_arg3
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg4 main_v13 main_v16
-- ==== Kernel.lean ====
abbrev S64x50000 : Shape := ⟨2, ![64, 50000]⟩
abbrev S1600000 : Shape := ⟨1, ![1600000]⟩
abbrev S50000 : Shape := ⟨1, ![50000]⟩
abbrev S_ : Shape := ⟨0, ![]⟩
abbrev S64x50176 : Shape := ⟨2, ![64, 50176]⟩
abbrev S1601536 : Shape := ⟨1, ![1601536]⟩
abbrev S1x1601536 : Shape := ⟨2, ![1, 1601536]⟩
abbrev S2x64x50176 : Shape := ⟨3, ![2, 64, 50176]⟩
abbrev S1x1024 : Shape := ⟨2, ![1, 1024]⟩
abbrev S1x64x50176 : Shape := ⟨3, ![1, 64, 50176]⟩
abbrev S64x1024 : Shape := ⟨2, ![64, 1024]⟩
abbrev S1024x1024 : Shape := ⟨2, ![1024, 1024]⟩
abbrev S1x64x1024 : Shape := ⟨3, ![1, 64, 1024]⟩
abbrev S1x50000 : Shape := ⟨2, ![1, 50000]⟩

abbrev nBuf : Space → Nat
  | .hbm => 36
  | .vmem => 11
  | .smem => 0
  | _ => 0

abbrev bufTy : (tb : Table) → Fin (tcTables nBuf tb) → BufTy
  | .hbm, ⟨0, _⟩ => ⟨S64x50000, .f32⟩
  | .hbm, ⟨1, _⟩ => ⟨S1600000, .f32⟩
  | .hbm, ⟨2, _⟩ => ⟨S1600000, .f32⟩
  | .hbm, ⟨3, _⟩ => ⟨S50000, .f32⟩
  | .hbm, ⟨4, _⟩ => ⟨S1600000, .i32⟩
  | .hbm, ⟨5, _⟩ => ⟨S1600000, .i32⟩
  | .hbm, ⟨6, _⟩ => ⟨S64x50000, .bf16⟩
  | .hbm, ⟨7, _⟩ => ⟨S_, .i32⟩
  | .hbm, ⟨8, _⟩ => ⟨S_, .bf16⟩
  | .hbm, ⟨9, _⟩ => ⟨S64x50176, .bf16⟩
  | .hbm, ⟨10, _⟩ => ⟨S_, .i32⟩
  | .hbm, ⟨11, _⟩ => ⟨S_, .i32⟩
  | .hbm, ⟨12, _⟩ => ⟨S1601536, .i32⟩
  | .hbm, ⟨13, _⟩ => ⟨S1x1601536, .i32⟩
  | .hbm, ⟨14, _⟩ => ⟨S_, .i32⟩
  | .hbm, ⟨15, _⟩ => ⟨S_, .i32⟩
  | .hbm, ⟨16, _⟩ => ⟨S1601536, .i32⟩
  | .hbm, ⟨17, _⟩ => ⟨S1x1601536, .i32⟩
  | .hbm, ⟨18, _⟩ => ⟨S_, .i32⟩
  | .hbm, ⟨19, _⟩ => ⟨S_, .f32⟩
  | .hbm, ⟨20, _⟩ => ⟨S1601536, .f32⟩
  | .hbm, ⟨21, _⟩ => ⟨S1x1601536, .f32⟩
  | .hbm, ⟨22, _⟩ => ⟨S_, .i32⟩
  | .hbm, ⟨23, _⟩ => ⟨S_, .f32⟩
  | .hbm, ⟨24, _⟩ => ⟨S1601536, .f32⟩
  | .hbm, ⟨25, _⟩ => ⟨S1x1601536, .f32⟩
  | .hbm, ⟨26, _⟩ => ⟨S2x64x50176, .f32⟩
  | .hbm, ⟨27, _⟩ => ⟨S_, .f32⟩
  | .hbm, ⟨28, _⟩ => ⟨S64x50176, .f32⟩
  | .hbm, ⟨29, _⟩ => ⟨S64x50000, .f32⟩
  | .hbm, ⟨30, _⟩ => ⟨S1x50000, .f32⟩
  | .hbm, ⟨31, _⟩ => ⟨S64x50000, .f32⟩
  | .hbm, ⟨32, _⟩ => ⟨S64x50000, .f32⟩
  | .hbm, ⟨33, _⟩ => ⟨S_, .f32⟩
  | .hbm, ⟨34, _⟩ => ⟨S64x50000, .f32⟩
  | .hbm, ⟨35, _⟩ => ⟨S64x50000, .f32⟩
  | .local _ .vmem, ⟨0, _⟩ => ⟨S64x50176, .bf16⟩
  | .local _ .vmem, ⟨1, _⟩ => ⟨S1x1024, .i32⟩
  | .local _ .vmem, ⟨2, _⟩ => ⟨S1x1024, .i32⟩
  | .local _ .vmem, ⟨3, _⟩ => ⟨S1x1024, .i32⟩
  | .local _ .vmem, ⟨4, _⟩ => ⟨S1x1024, .i32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x64x50176, .f32⟩
  | .local _ .vmem, ⟨10, _⟩ => ⟨S64x1024, .f32⟩
  | _, _ => ⟨S64x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_call3_v0 : Ref sig .tc := ⟨.hbm, 19, rfl⟩
abbrev main_v6 : Ref sig .tc := ⟨.hbm, 20, rfl⟩
abbrev main_v7 : Ref sig .tc := ⟨.hbm, 21, rfl⟩
abbrev main_c_3 : Ref sig .tc := ⟨.hbm, 22, rfl⟩
abbrev main_call4_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call5_cst : Ref sig .tc := ⟨.hbm, 33, rfl⟩
abbrev main_call5_v0 : Ref sig .tc := ⟨.hbm, 34, rfl⟩
abbrev main_v16 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![2, 782], ![false, false]⟩

@[reducible] def k0_t1_loop : Scf.Loop 32 :=
  let c0_i32_10 : BitVec 32 := 0#32
  let c49_i32 : BitVec 32 := 49#32
  let v17 : BitVec 32 := Scalar.addi c0_i32_10 c49_i32
  let c1_i32 : BitVec 32 := 1#32
  ⟨c0_i32_10, v17, c1_i32⟩
def k0_mult1 (k0_t1 : Fin k0_t1_loop.trips) : BitVec 32 :=
  let c0_i32_19 : BitVec 32 := 0#32
  let c0_i32_10 : BitVec 32 := 0#32
  let c1_i32 : BitVec 32 := 1#32
  let arg9 : BitVec 32 := Scf.iv c0_i32_10 c1_i32 k0_t1
  let c1_i32_18 : BitVec 32 := 1#32
  let v23 : BitVec 32 := Scalar.muli arg9 c1_i32_18
  let v24 : BitVec 32 := Scalar.addi c0_i32_19 v23
  let c1024_i32 : BitVec 32 := 1024#32
  let v25 : BitVec 32 := Scalar.muli v24 c1024_i32
  v25
def k0_off1 (k0_t1 : Fin k0_t1_loop.trips) : Fin 2 → Nat :=
  let c0_20 : Index := 0#32
  let c0_i32_19 : BitVec 32 := 0#32
  let c0_i32_10 : BitVec 32 := 0#32
  let c1_i32 : BitVec 32 := 1#32
  let arg9 : BitVec 32 := Scf.iv c0_i32_10 c1_i32 k0_t1
  let c1_i32_18 : BitVec 32 := 1#32
  let v23 : BitVec 32 := Scalar.muli arg9 c1_i32_18
  let v24 : BitVec 32 := Scalar.addi c0_i32_19 v23
  let c1024_i32 : BitVec 32 := 1024#32
  let v25 : BitVec 32 := Scalar.muli v24 c1024_i32
  let v26 : BitVec 32 := v25
  let v34 : Index := Scalar.indexCast v26
  ![0, v34.toNat]
@[reducible] def k0_t2_loop : Scf.Loop 32 :=
  let c0_i32_14 : BitVec 32 := 0#32
  let c49_i32_15 : BitVec 32 := 49#32
  let v22 : BitVec 32 := Scalar.addi c0_i32_14 c49_i32_15
  let c1_i32_16 : BitVec 32 := 1#32
  ⟨c0_i32_14, v22, c1_i32_16⟩
def k0_mult2 (k0_t2 : Fin k0_t2_loop.trips) : BitVec 32 :=
  let c0_i32_19 : BitVec 32 := 0#32
  let c0_i32_14 : BitVec 32 := 0#32
  let c1_i32_16 : BitVec 32 := 1#32
  let arg9 : BitVec 32 := Scf.iv c0_i32_14 c1_i32_16 k0_t2
  let c1_i32_18 : BitVec 32 := 1#32
  let v23 : BitVec 32 := Scalar.muli arg9 c1_i32_18
  let v24 : BitVec 32 := Scalar.addi c0_i32_19 v23
  let c1024_i32 : BitVec 32 := 1024#32
  let v25 : BitVec 32 := Scalar.muli v24 c1024_i32
  v25
def k0_off2 (k0_t2 : Fin k0_t2_loop.trips) : Fin 3 → Nat :=
  let c0_21 : Index := 0#32
  let c0_22 : Index := 0#32
  let c0_i32_19 : BitVec 32 := 0#32
  let c0_i32_14 : BitVec 32 := 0#32
  let c1_i32_16 : BitVec 32 := 1#32
  let arg9 : BitVec 32 := Scf.iv c0_i32_14 c1_i32_16 k0_t2
  let c1_i32_18 : BitVec 32 := 1#32
  let v23 : BitVec 32 := Scalar.muli arg9 c1_i32_18
  let v24 : BitVec 32 := Scalar.addi c0_i32_19 v23
  let c1024_i32 : BitVec 32 := 1024#32
  let v25 : BitVec 32 := Scalar.muli v24 c1024_i32
  let v26 : BitVec 32 := v25
  let v35 : Index := Scalar.indexCast v26
  ![0, 0, v35.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c782_i32 : BitVec 32 := 782#32
  let v0 : BitVec 32 := Scalar.muli arg0 c782_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c782_i32 : BitVec 32 := 782#32
  let v0 : BitVec 32 := Scalar.muli arg0 c782_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c782_i32 : BitVec 32 := 782#32
  let v0 : BitVec 32 := Scalar.muli arg0 c782_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c782_i32 : BitVec 32 := 782#32
  let v0 : BitVec 32 := Scalar.muli arg0 c782_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x50176 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x64x50176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  bitsLt_bf16_f32 : FTy.bits .bf16 < FTy.bits .f32
  pads_S64x50000_S64x50176_000_01760 : S64x50000.Pads (![0, 0] : Fin 2 → Nat) ![0, 176] ![0, 0] S64x50176
  h_S_ : 0 < S_.numel
  pads_S1600000_S1601536_015360 : S1600000.Pads (![0] : Fin 1 → Nat) ![1536] ![0] S1601536
  shapeCasts_S1601536_S1x1601536 : S1601536.ShapeCasts S1x1601536
  inb_S1x64x50176_S1x64x50176_0_0_0 : ∀ a, (![0, 0, 0] : Fin 3 → Nat) a + S1x64x50176.size a ≤ S1x64x50176.size a
  h_S1x64x50176 : 0 < S1x64x50176.numel
  shapeCasts_S1x64x50176_S64x50176 : S1x64x50176.ShapeCasts S64x50176
  shapeCasts_S64x50176_S1x64x50176 : S64x50176.ShapeCasts S1x64x50176
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  iota_S1024x1024_d0_w32 : S1024x1024.Iotas .tc 32 [0]
  broadcasts_S1x1024_S1024x1024 : S1x1024.Broadcasts S1024x1024
  natLt_1_32 : 1 < 32
  broadcasts_S1x1024_S64x1024 : S1x1024.Broadcasts S64x1024
  h_S1x64x1024 : 0 < S1x64x1024.numel
  shapeCasts_S1x64x1024_S64x1024 : S1x64x1024.ShapeCasts S64x1024
  shapeCasts_S64x1024_S1x64x1024 : S64x1024.ShapeCasts S1x64x1024
  reducesTo_S2x64x50176_S64x50176_d0 : S2x64x50176.ReducesTo [0] S64x50176
  slices_S64x50176_S64x50000_0_0 : S64x50176.Slices ![0, 0] S64x50000
  bcast_S50000_S1x50000_1 : S50000.BroadcastsInDim S1x50000 (![1] : Fin 1 → Fin S1x50000.rank)
  bcast_S1x50000_S64x50000_0_1 : S1x50000.BroadcastsInDim S64x50000 (![0, 1] : Fin 2 → Fin S64x50000.rank)
  bcast_S_S64x50000 : S_.BroadcastsInDim S64x50000 (![] : Fin 0 → Fin S64x50000.rank)
  dot_S64x1024_S1024x1024_S64x1024_1_0_0_1_n_n_wf : DotDims.WF S64x1024 S1024x1024 S64x1024 [1] [0] [0] [1] [] []
  dot_S64x1024_S1024x1024_S64x1024_1_1_0_0_n_n_wf : DotDims.WF S64x1024 S1024x1024 S64x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S64x1024.size a ≤ S64x50176.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S1x64x1024.size a ≤ S1x64x50176.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x50176.size a ≤ S64x50176.size a
  hwx0_0 : ∀ i : grid0.Coords, EltTy.bits .bf16 = 32 ∨ (Rect.block (s := S64x50176) S64x50176.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1601536.size a
  hwx0_1 : ∀ i : grid0.Coords, EltTy.bits .i32 = 32 ∨ (Rect.block (s := S1x1601536) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1601536.size a
  hwx0_2 : ∀ i : grid0.Coords, EltTy.bits .i32 = 32 ∨ (Rect.block (s := S1x1601536) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1601536.size a
  hwx0_3 : ∀ i : grid0.Coords, EltTy.bits .f32 = 32 ∨ (Rect.block (s := S1x1601536) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1601536.size a
  hwx0_4 : ∀ i : grid0.Coords, EltTy.bits .f32 = 32 ∨ (Rect.block (s := S1x1601536) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64x50176.size a ≤ S2x64x50176.size a
  hwx0_5 : ∀ i : grid0.Coords, EltTy.bits .f32 = 32 ∨ (Rect.block (s := S2x64x50176) S1x64x50176.size (cc0_transform_5 i) (hinb0_5 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf

abbrev win0_0 : Pipeline.Window sig grid0 :=
  Pipeline.Window.ofSpec (Memref.whole main_v1) S64x50176.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x64x50176.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x50000 : Shape := ⟨2, ![64, 50000]⟩
abbrev S1600000 : Shape := ⟨1, ![1600000]⟩
abbrev S50000 : Shape := ⟨1, ![50000]⟩
abbrev S_ : Shape := ⟨0, ![]⟩
abbrev S1600000x1 : Shape := ⟨2, ![1600000, 1]⟩
abbrev S64x1600000 : Shape := ⟨2, ![64, 1600000]⟩
abbrev S1x1600000 : Shape := ⟨2, ![1, 1600000]⟩
abbrev S1600000x64 : Shape := ⟨2, ![1600000, 64]⟩
abbrev S50000x64 : Shape := ⟨2, ![50000, 64]⟩
abbrev S1x50000 : Shape := ⟨2, ![1, 50000]⟩

abbrev nBuf : Space → Nat
  | .hbm => 31
  | .vmem => 0
  | .smem => 0
  | _ => 0

abbrev bufTy : (tb : Table) → Fin (tcTables nBuf tb) → BufTy
  | .hbm, ⟨0, _⟩ => ⟨S64x50000, .f32⟩
  | .hbm, ⟨1, _⟩ => ⟨S1600000, .f32⟩
  | .hbm, ⟨2, _⟩ => ⟨S1600000, .f32⟩
  | .hbm, ⟨3, _⟩ => ⟨S50000, .f32⟩
  | .hbm, ⟨4, _⟩ => ⟨S1600000, .i32⟩
  | .hbm, ⟨5, _⟩ => ⟨S1600000, .i32⟩
  | .hbm, ⟨6, _⟩ => ⟨S1600000, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S64x1600000, .f32⟩
  | .hbm, ⟨16, _⟩ => ⟨S1x1600000, .f32⟩
  | .hbm, ⟨17, _⟩ => ⟨S64x1600000, .f32⟩
  | .hbm, ⟨18, _⟩ => ⟨S64x1600000, .f32⟩
  | .hbm, ⟨19, _⟩ => ⟨S1600000x64, .f32⟩
  | .hbm, ⟨20, _⟩ => ⟨S_, .f32⟩
  | .hbm, ⟨21, _⟩ => ⟨S50000x64, .f32⟩
  | .hbm, ⟨22, _⟩ => ⟨S1600000x1, .i32⟩
  | .hbm, ⟨23, _⟩ => ⟨S50000x64, .f32⟩
  | .hbm, ⟨24, _⟩ => ⟨S64x50000, .f32⟩
  | .hbm, ⟨25, _⟩ => ⟨S1x50000, .f32⟩
  | .hbm, ⟨26, _⟩ => ⟨S64x50000, .f32⟩
  | .hbm, ⟨27, _⟩ => ⟨S64x50000, .f32⟩
  | .hbm, ⟨28, _⟩ => ⟨S_, .f32⟩
  | .hbm, ⟨29, _⟩ => ⟨S64x50000, .f32⟩
  | .hbm, ⟨30, _⟩ => ⟨S64x50000, .f32⟩
  | _, _ => ⟨S64x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000_S1x1600000_1 : S1600000.BroadcastsInDim S1x1600000 (![1] : Fin 1 → Fin S1x1600000.rank)
  bcast_S1x1600000_S64x1600000_0_1 : S1x1600000.BroadcastsInDim S64x1600000 (![0, 1] : Fin 2 → Fin S64x1600000.rank)
  transposes_S64x1600000_S1600000x64_1_0 : S64x1600000.Transposes [1, 0] S1600000x64
  bcast_S_S50000x64 : S_.BroadcastsInDim S50000x64 (![] : Fin 0 → Fin S50000x64.rank)
  transposes_S50000x64_S64x50000_1_0 : S50000x64.Transposes [1, 0] S64x50000
  bcast_S50000_S1x50000_1 : S50000.BroadcastsInDim S1x50000 (![1] : Fin 1 → Fin S1x50000.rank)
  bcast_S1x50000_S64x50000_0_1 : S1x50000.BroadcastsInDim S64x50000 (![0, 1] : Fin 2 → Fin S64x50000.rank)
  bcast_S_S64x50000 : S_.BroadcastsInDim S64x50000 (![] : Fin 0 → Fin S64x50000.rank)
  gather_S64x50000_S1600000x1_S64x1600000_0_1_n_n_1_1_641_wf : GatherDims.WF S64x50000 S1600000x1 S64x1600000 [0] [1] [] [1] [] 1 ![64, 1]
  scatter_S50000x64_S1600000x1_S1600000x64_1_0_0_1_wf : ScatterDims.WF S50000x64 S1600000x1 S1600000x64 [1] [0] [0] 1

variable [Facts₀]

def gather_S64x50000_S1600000x1_S64x1600000_0_1_n_n_1_1_641 : GatherDims S64x50000 S1600000x1 S64x1600000 where
  offsetDims := [0]
  collapsedSliceDims := [1]
  operandBatchingDims := []
  startIndicesBatchingDims := []
  startIndexMap := [1]
  indexVectorDim := 1
  sliceSizes := ![64, 1]
  wf := gather_S64x50000_S1600000x1_S64x1600000_0_1_n_n_1_1_641_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.KLoops.lean ====
/-
  The two counted loops of the kernel body, read back as recursions over their payloads.
  Each trip of the first loop stores the whole scratch: what it held plus the chunk's product. Each trip of the second loop
  stores one chunk of 1024 columns of the output block: what the chunk held plus the chunk's product. Here the stores a trip
  makes are named, and the scratch after k trips of the first loop is shown to be a plain recursion over the first loop's
  payload, starting from the zero fill.
-/
import proofs.«406251_j54657753809402_2_alg».proof.Proof.Gen.KernelIdeal.Frame
import Idealize.ShloMosaic.Lib.Pipeline.Value

set_option maxRecDepth 16384

noncomputable section

namespace Cert.KLoops

open Idealize.ShloMosaic Idealize.ShloMosaic.TcCoe Idealize.SL.Sem
open Cert.KernelIdeal Cert.KernelIdeal.Gen

variable {F : FTy → Type} [FloatOps F]

/-- The zero offsets of rank 2 and rank 3, however they are spelt. -/
theorem hz2 : (![0, 0] : Fin 2 → ℕ) = fun _ => 0 := by
  funext a; fin_cases a <;> rfl
theorem hz3 : (![0, 0, 0] : Fin 3 → ℕ) = fun _ => 0 := by
  funext a; fin_cases a <;> rfl

/-- An index embedded through the whole-shape rectangle at zero offsets is itself. -/
theorem emb_unit_zero {S : Shape} {off : Fin S.rank → ℕ} (h : off = fun _ => 0)
    (inb : ∀ a, off a + S.size a ≤ S.size a) (y : S.Idx) : (Rect.unit off S.size inb).emb y = y := by
  subst h
  show (Rect.whole S).emb y = y
  exact Rect.emb_whole_apply S y

variable (𝒱 : Variants) (c : Dev nD) (bd : Option 𝒱.V) (i : grid0.Coords) (arg2 : Memref sig .tc .vmem S64x50176 .bf16) (harg2 : arg2.IsWhole) (arg3 : Memref sig .tc .vmem S1x1024 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x64x50176 .f32) (harg7 : arg7.IsWhole) (arg8 : Memref sig .tc .vmem S64x1024 .f32) (harg8 : arg8.IsWhole)

/-- The one store of a trip of the first loop: the whole scratch, at the first payload of the feature chunk the trip loads and
    of what the scratch held. -/
theorem tripL1_eq (v3 : Vec F S1x1024 .i32) (X : BufTy.Contents (Elt F) arg2.view.ty) (k : Fin k0_t1_loop.trips)
    (f : BufTy.Contents (Elt F) arg8.view.ty) :
    tripL_k0_t1 (F := F) 𝒱 c bd i arg2 harg2 arg3 harg3 arg4 harg4 arg5 harg5 arg6 harg6 arg7 harg7 arg8 harg8 v3 X k f
      = [⟨Rect.unit (s := S64x1024) ![0, 0] S64x1024.size inb_S64x1024_S64x1024_0_0,
          k0_pay3 v3 k (View.readAt (Elt F) arg2.view (Rect.unit (s := S64x50176) (k0_off1 k) S64x1024.size (k0_off1_inb k)).toLoadRect X)
            (View.readAt (Elt F) arg8.view (Rect.unit (s := S64x1024) ![0, 0] S64x1024.size inb_S64x1024_S64x1024_0_0).toLoadRect f)⟩] := by
  unfold tripL_k0_t1 trip_k0_t1
  rfl

/-- The one store of a trip of the second loop: chunk k of the output block, at the second payload of what the chunk held. -/
theorem tripL2_eq (v5 : Vec F S1x1024 .i32) (v7 v9 : Vec F S1x1024 .f32) (v18 : Vec F S64x1024 .f32)
    (k : Fin k0_t2_loop.trips) (f : BufTy.Contents (Elt F) arg7.view.ty) :
    tripL_k0_t2 (F := F) 𝒱 c bd i arg2 harg2 arg3 harg3 arg4 harg4 arg5 harg5 arg6 harg6 arg7 harg7 arg8 harg8 v5 v7 v9 v18 k f
      = [⟨Rect.unit (s := S1x64x50176) (k0_off2 k) S1x64x1024.size (k0_off2_inb k),
          k0_pay4 v5 v7 v9 v18 k
            (View.readAt (Elt F) arg7.view (Rect.unit (s := S1x64x50176) (k0_off2 k) S1x64x1024.size (k0_off2_inb k)).toLoadRect f)⟩] := by
  unfold tripL_k0_t2 trip_k0_t2
  rfl

/-- The scratch after k trips of the first loop, from the zero fill: each trip applies the first payload to the feature
    chunk it loads and to what the scratch held. -/
def scr (v3 : Vec F S1x1024 .i32) (x0 : Vec F S64x50176 .bf16) : ℕ → Vec F S64x1024 .f32
  | 0 => k0_pay2
  | k + 1 =>
    if h : k < k0_t1_loop.trips then
      k0_pay3 v3 ⟨k, h⟩ (View.ld x0 (Rect.unit (s := S64x50176) (k0_off1 ⟨k, h⟩) S64x1024.size (k0_off1_inb ⟨k, h⟩))) (scr v3 x0 k)
    else scr v3 x0 k

theorem scr_succ (v3 : Vec F S1x1024 .i32) (x0 : Vec F S64x50176 .bf16) (k : Fin k0_t1_loop.trips) :
    scr v3 x0 (k.val + 1)
      = k0_pay3 v3 k (View.ld x0 (Rect.unit (s := S64x50176) (k0_off1 k) S64x1024.size (k0_off1_inb k))) (scr v3 x0 k.val) := by
  rw [scr, dif_pos k.isLt]

/-- THE FIRST LOOP READ BACK: over contents that read as the zero fill, the scratch after the stores of the first k trips
    reads as the recursion. -/
theorem read_loop1 (v3 : Vec F S1x1024 .i32) (x0 : Vec F S64x50176 .bf16) (G0 : BufTy.Contents (Elt F) arg8.view.ty)
    (hG0 : arg8.view.read (Elt F) G0 = k0_pay2 (F := F)) :
    ∀ k : ℕ, k ≤ k0_t1_loop.trips →
      arg8.view.read (Elt F) (arg8.view.writes (Elt F) G0
        (pb_k0_t1 (F := F) 𝒱 c bd i arg2 harg2 arg3 harg3 arg4 harg4 arg5 harg5 arg6 harg6 arg7 harg7 arg8 harg8 v3 (harg2.unread x0) G0 k)) = scr v3 x0 k
  | 0, _ => by
    rw [show pb_k0_t1 (F := F) 𝒱 c bd i arg2 harg2 arg3 harg3 arg4 harg4 arg5 harg5 arg6 harg6 arg7 harg7 arg8 harg8 v3 (harg2.unread x0) G0 0 = [] from rfl, View.writes_nil]
    exact hG0
  | k + 1, hk => by
    have hk' : k < k0_t1_loop.trips := hk
    have ih := read_loop1 v3 x0 G0 hG0 k (Nat.le_of_lt hk')
    have hs : pb_k0_t1 (F := F) 𝒱 c bd i arg2 harg2 arg3 harg3 arg4 harg4 arg5 harg5 arg6 harg6 arg7 harg7 arg8 harg8 v3 (harg2.unread x0) G0 (k + 1) = _ :=
      pb_k0_t1_succ (F := F) 𝒱 c bd i arg2 harg2 arg3 harg3 arg4 harg4 arg5 harg5 arg6 harg6 arg7 harg7 arg8 harg8 v3 (harg2.unread x0) G0 ⟨k, hk'⟩
    rw [hs, tripL1_eq, List.singleton_append, scr_succ v3 x0 ⟨k, hk'⟩]
    funext y
    have e1 := View.read_writes_cons_emb arg8.view G0 (Rect.unit (s := S64x1024) ![0, 0] S64x1024.size inb_S64x1024_S64x1024_0_0)
      (k0_pay3 v3 ⟨k, hk'⟩ (View.readAt (Elt F) arg2.view (Rect.unit (s := S64x50176) (k0_off1 ⟨k, hk'⟩) S64x1024.size (k0_off1_inb ⟨k, hk'⟩)).toLoadRect (harg2.unread x0))
            (View.readAt (Elt F) arg8.view (Rect.unit (s := S64x1024) ![0, 0] S64x1024.size inb_S64x1024_S64x1024_0_0).toLoadRect
              (arg8.view.writes (Elt F) G0 (pb_k0_t1 (F := F) 𝒱 c bd i arg2 harg2 arg3 harg3 arg4 harg4 arg5 harg5 arg6 harg6 arg7 harg7 arg8 harg8 v3 (harg2.unread x0) G0 k))))
      (pb_k0_t1 (F := F) 𝒱 c bd i arg2 harg2 arg3 harg3 arg4 harg4 arg5 harg5 arg6 harg6 arg7 harg7 arg8 harg8 v3 (harg2.unread x0) G0 k) y
    rw [emb_unit_zero hz2] at e1
    rw [e1, View.readAt_eq_ld, View.readAt_eq_ld, harg2.read_unread, ih, View.ld_unit_zero hz2]

end Cert.KLoops

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.LibTransDot.lean ====
/-
  A matrix product contracting the second axis of both operands, read at an entry.
  The dimension numbers "contract the left operand's axis 1 with the right operand's axis 1, no batch axis" describe the
  product of an [M, K] matrix with the transpose of an [N, K] matrix. At the ideal instance the vector unit's product into a
  zero accumulator has entry (p, q) equal to the sum over k of l[p, k] * r[q, k]. The lemmas are stated for any extents
  M, K, N and any proof of the dimension numbers' well-formedness, so every record with these six axis lists is an instance.
-/
import Idealize.ShloMosaic.PureOps.Ideal.Laws
import Idealize.ShloMosaic.Lib.ValueIdx

noncomputable section

namespace Cert.LibTransDot

open Idealize.ShloMosaic Idealize.ShloMosaic.ValueIdx

/-- The dimension numbers of the product [M, K] × [N, K]ᵀ → [M, N], over any proof that they are well formed. -/
abbrev transDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

section
variable {M K N : Nat} (wf : DotDims.WF ⟨2, ![M, K]⟩ ⟨2, ![N, K]⟩ ⟨2, ![M, N]⟩ [1] [1] [0] [0] [] [])

/-- The left operand's row is the result's row: axis 0 of the left operand is its one free axis. -/
theorem trans_lhs_row (j : (⟨2, ![M, N]⟩ : Shape).Idx) (k : (transDims M K N wf).contr.Idx) :
    ((transDims M K N wf).lhsIdx j k 0).val = (j 0).val := by
  unfold DotDims.lhsIdx
  rw [dif_neg (show ¬(0 : Fin (⟨2, ![M, K]⟩ : Shape).rank) ∈ (transDims M K N wf).lhsBatch from List.not_mem_nil),
    dif_pos (show (0 : Fin (⟨2, ![M, K]⟩ : Shape).rank) ∈ (transDims M K N wf).lhsNonContracting from List.mem_singleton.mpr rfl)]
  rfl

/-- The left operand's column is the contraction index. -/
theorem trans_lhs_col (j : (⟨2, ![M, N]⟩ : Shape).Idx) (k : (transDims M K N wf).contr.Idx) :
    ((transDims M K N wf).lhsIdx j k 1).val = (k ⟨0, Nat.one_pos⟩).val :=
  (transDims M K N wf).lhsIdx_val_of_single rfl j k

/-- The right operand's row is the result's column: axis 0 of the right operand is its one free axis, and it comes after
    the left operand's one free axis among the result's axes. -/
theorem trans_rhs_row (j : (⟨2, ![M, N]⟩ : Shape).Idx) (k : (transDims M K N wf).contr.Idx) :
    ((transDims M K N wf).rhsIdx j k 0).val = (j 1).val := by
  unfold DotDims.rhsIdx
  rw [dif_neg (show ¬(0 : Fin (⟨2, ![N, K]⟩ : Shape).rank) ∈ (transDims M K N wf).rhsBatch from List.not_mem_nil),
    dif_pos (show (0 : Fin (⟨2, ![N, K]⟩ : Shape).rank) ∈ (transDims M K N wf).rhsNonContracting from List.mem_singleton.mpr rfl)]
  rfl

/-- The right operand's column is the contraction index. -/
theorem trans_rhs_col (j : (⟨2, ![M, N]⟩ : Shape).Idx) (k : (transDims M K N wf).contr.Idx) :
    ((transDims M K N wf).rhsIdx j k 1).val = (k ⟨0, Nat.one_pos⟩).val :=
  (transDims M K N wf).rhsIdx_val_of_single rfl j k

/-- THE CONTRACTION'S SUM over the one contracted axis, re-indexed by its coordinate k : Fin K: the operands are read
    at (p, k) and (q, k). -/
theorem trans_sum_contr {α : Type} [AddCommMonoid α] (f : (⟨2, ![M, K]⟩ : Shape).Idx → (⟨2, ![N, K]⟩ : Shape).Idx → α)
    (p : Fin M) (q : Fin N) :
    ∑ k : (transDims M K N wf).contr.Idx, f ((transDims M K N wf).lhsIdx (ix2 p q) k) ((transDims M K N wf).rhsIdx (ix2 p q) k)
      = ∑ k : Fin K, f (ix2 p k) (ix2 q k) := by
  rw [← Equiv.sum_comp (contrEquiv1 (transDims M K N wf) K rfl rfl).symm]
  refine Finset.sum_congr rfl fun k _ => ?_
  have hk := contrEquiv1_symm_val (transDims M K N wf) K rfl rfl k
  have el : (transDims M K N wf).lhsIdx (ix2 p q) ((contrEquiv1 (transDims M K N wf) K rfl rfl).symm k) = ix2 p k :=
    funext fun a => Fin.ext (by
      match a with
      | ⟨0, _⟩ => exact trans_lhs_row wf _ _
      | ⟨1, _⟩ => exact (trans_lhs_col wf _ _).trans hk)
  have er : (transDims M K N wf).rhsIdx (ix2 p q) ((contrEquiv1 (transDims M K N wf) K rfl rfl).symm k) = ix2 q k :=
    funext fun a => Fin.ext (by
      match a with
      | ⟨0, _⟩ => exact trans_rhs_row wf _ _
      | ⟨1, _⟩ => exact (trans_rhs_col wf _ _).trans hk)
  rw [el, er]

/-- THE VECTOR UNIT'S PRODUCT INTO A ZERO ACCUMULATOR, at the ideal instance, read at (p, q). -/
theorem trans_matmul_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (transDims M K N wf) prec l r (constant ⟨2, ![M, N]⟩ .f32 0x00000000#32) (ix2 p q)
      = ∑ k : Fin K, l (ix2 p k) * r (ix2 q k) := by
  rw [Ideal.matmul_constant_zero_apply]
  exact trans_sum_contr wf (fun a b => l a * r b) p q

end

end Cert.LibTransDot

end
-- ==== Proof.Spec.lean ====
/-
  The mathematics of the message-passing layer, stated over plain index functions.

  Inputs: node features x[b, n] (64 rows, 50000 nodes), per-edge factors adj[e] and w[e], a per-node bias, and for each of
  the 1600000 edges a source word src[e] and a destination word dst[e] (32-bit words read as signed integers).

  The reference gathers x[b, src e], scales it by adj e * w e, sums the scaled messages over the edges whose destination is
  n, adds the bias and clips below at zero.

  The kernel pads the nodes to 50176 and the edges to 1601536 with zeros, cuts the edges into 1564 blocks of 1024, and for
  each block forms (a) the gathered features as a product with a 0/1 matrix (entry 1 exactly when the source word is the node
  number) and (b) the block's contribution to every node as a second product with the 0/1 matrix of the destination words;
  the contributions are summed over the blocks in two halves of 782 blocks, the two halves are added, the padded nodes are
  dropped, the bias is added and the result clipped below at zero.
-/
import Idealize.ShloMosaic.PureOps.Ideal
import Idealize.ShloMosaic.Lib.ValueIdx

noncomputable section

namespace Cert.Spec

open Idealize.ShloMosaic

/-- Node features padded with zero columns up to 50176 nodes. -/
def xPad (x : Fin 64 → Fin 50000 → EReal) (b : Fin 64) (n : Fin 50176) : EReal :=
  if h : n.val < 50000 then x b ⟨n.val, h⟩ else 0

/-- A per-edge word array padded with zero words up to 1601536 edges. -/
def wordPad (s : Fin 1600000 → BitVec 32) (e : Fin 1601536) : BitVec 32 :=
  if h : e.val < 1600000 then s ⟨e.val, h⟩ else 0#32

/-- A per-edge real array padded with zeros up to 1601536 edges. -/
def realPad (a : Fin 1600000 → EReal) (e : Fin 1601536) : EReal :=
  if h : e.val < 1600000 then a ⟨e.val, h⟩ else 0

/-- Block j (of 1564) of a padded per-edge array: its 1024 consecutive entries from 1024 * j. -/
def blockOf {α : Type} (s : Fin 1601536 → α) (j : Fin 1564) (e : Fin 1024) : α :=
  s ⟨1024 * j.val + e.val, by have := j.isLt; have := e.isLt; omega⟩

/-- The block a grid point (half c, step i) works on: block 782 * c + i. -/
def blockIdx (c : Fin 2) (i : Fin 782) : Fin 1564 := ⟨782 * c.val + i.val, by have := c.isLt; have := i.isLt; omega⟩

/-- The entry of a 0/1 selection matrix: 1 when the word is the number n as a 32-bit word, else 0. -/
def hot (s : BitVec 32) (n : ℕ) : EReal := if s = BitVec.ofNat 32 n then 1 else 0

/-- The gathered features of one edge block: the product of the padded features with the 0/1 matrix of the source words. -/
def gathered (xp : Fin 64 → Fin 50176 → EReal) (src : Fin 1024 → BitVec 32) (b : Fin 64) (e : Fin 1024) : EReal :=
  ∑ n : Fin 50176, xp b n * hot (src e) n.val

/-- One edge block's contribution to node n: the scaled gathered features times the 0/1 matrix of the destination words. -/
def part (xp : Fin 64 → Fin 50176 → EReal) (src dst : Fin 1024 → BitVec 32) (a w : Fin 1024 → EReal)
    (b : Fin 64) (n : Fin 50176) : EReal :=
  ∑ e : Fin 1024, (gathered xp src b e * (a e * w e)) * hot (dst e) n.val

/-- The contribution of block j of the padded inputs. -/
def partOf (x : Fin 64 → Fin 50000 → EReal) (adj w : Fin 1600000 → EReal) (src dst : Fin 1600000 → BitVec 32)
    (j : Fin 1564) (b : Fin 64) (n : Fin 50176) : EReal :=
  part (xPad x) (blockOf (wordPad src) j) (blockOf (wordPad dst) j) (blockOf (realPad adj) j) (blockOf (realPad w) j) b n

/-- What half c of the kernel's grid accumulates for node n: the sum of its 782 blocks' contributions. -/
def halfSum (x : Fin 64 → Fin 50000 → EReal) (adj w : Fin 1600000 → EReal) (src dst : Fin 1600000 → BitVec 32)
    (c : Fin 2) (b : Fin 64) (n : Fin 50176) : EReal :=
  ∑ i : Fin 782, partOf x adj w src dst (blockIdx c i) b n

/-- THE KERNEL'S RESULT: the two halves added (from zero), the padded nodes dropped, the bias added, clipped below at zero. -/
def kernelOut (x : Fin 64 → Fin 50000 → EReal) (adj w : Fin 1600000 → EReal) (bias : Fin 50000 → EReal)
    (src dst : Fin 1600000 → BitVec 32) (b : Fin 64) (n : Fin 50000) : EReal :=
  max ((0 + ∑ c : Fin 2, halfSum x adj w src dst c b ⟨n.val, by have := n.isLt; omega⟩) + bias n) 0

/-- The node a source word names for the reference: a negative word is first raised by 50000, then the word is read as a
    signed integer and clamped into the nodes. -/
def srcNode (s : BitVec 32) : Fin 50000 :=
  ⟨min (if s.slt 0#32 then s + 50000#32 else s).toInt.toNat 49999, by omega⟩

/-- THE REFERENCE'S RESULT: over the edges whose destination word, read signed, is n, the sum (from zero) of the gathered
    feature times the edge's factor; the bias added; clipped below at zero. -/
def refOut (x : Fin 64 → Fin 50000 → EReal) (adj w : Fin 1600000 → EReal) (bias : Fin 50000 → EReal)
    (src dst : Fin 1600000 → BitVec 32) (b : Fin 64) (n : Fin 50000) : EReal :=
  max ((0 + ∑ e ∈ Finset.univ.filter (fun e : Fin 1600000 => (dst e).toInt = (n.val : Int)),
      x b (srcNode (src e)) * (adj e * w e)) + bias n) 0

end Cert.Spec

end
-- ==== Proof.KPay.lean ====
/-
  The kernel body's four store payloads read at an entry, at the ideal instance.
  The two zero fills are 0 everywhere. A trip of the gather loop adds to the scratch entry (b, e) the product of the
  feature chunk's row b with column e of the chunk's 0/1 matrix, whose entry (r, e) is 1 exactly when the source word of
  edge e is the node number 1024 k + r. A trip of the scatter loop adds to the output entry (b, r) of chunk k the product of
  the scaled gathered row b with row r of the chunk's 0/1 matrix of destination words (a product contracting the two
  operands' second axes).
-/
import proofs.«406251_j54657753809402_2_alg».proof.Proof.Gen.KernelIdeal.Skeleton
import proofs.«406251_j54657753809402_2_alg».proof.Proof.LibPlainDot
import proofs.«406251_j54657753809402_2_alg».proof.Proof.LibTransDot
import proofs.«406251_j54657753809402_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KPay

open Idealize.ShloMosaic Idealize.ShloMosaic.ValueIdx Cert.KernelIdeal Cert.KernelIdeal.Gen

/-! ## The two zero fills -/

/-- The output block's zero fill. -/
theorem pay1_apply (y : S1x64x50176.Idx) : k0_pay1 (F := Ideal) y = 0 := by
  unfold k0_pay1
  refine (shapeCast_addUnit_apply ![64, 50176] _ _ y).trans ?_
  exact Ideal.ofBits_zero_f32

/-- The scratch's zero fill. -/
theorem pay2_apply (y : S64x1024.Idx) : k0_pay2 (F := Ideal) y = 0 := by
  unfold k0_pay2
  rw [shapeCast_self]
  exact Ideal.ofBits_zero_f32

/-! ## The chunk's 0/1 matrix -/

/-- A word equals a difference exactly when the minuend is the sum. -/
theorem word_eq_sub_iff (a s c : BitVec 32) : a = s - c ↔ s = a + c := by
  constructor
  · intro h; rw [h, BitVec.sub_add_cancel]
  · intro h; rw [h, BitVec.add_sub_cancel]

/-- The chunk's base word: the loop body's scalar chain at trip k is the word of 1024 k. -/
theorem base_word (k : ℕ) :
    Scalar.muli (Scalar.addi 0#32 (Scalar.muli (Scf.iv 0#32 1#32 k) 1#32)) 1024#32 = BitVec.ofNat 32 (1024 * k) := by
  unfold Scalar.muli Scalar.addi IntOp.muli IntOp.addi Scf.iv
  rw [BitVec.mul_one, BitVec.mul_one, BitVec.zero_add, BitVec.zero_add, Nat.mul_comm, BitVec.ofNat_mul]

/-- The 0/1 entry: the comparison of the row number r with the word s less the chunk's base, widened and converted, is 1
    exactly when s is the word of 1024 k + r. -/
theorem hot_entry (s : BitVec 32) (k r : ℕ) :
    ((((IntOp.cmpi .eq (BitVec.ofNat 32 r) (IntOp.subi s (BitVec.ofNat 32 (1024 * k)))).setWidth 32).toInt : ℝ) : EReal)
      = Cert.Spec.hot s (1024 * k + r) := by
  have hiff : BitVec.ofNat 32 r = s - BitVec.ofNat 32 (1024 * k) ↔ s = BitVec.ofNat 32 (1024 * k + r) := by
    rw [word_eq_sub_iff, BitVec.ofNat_add, BitVec.add_comm]
  show ((((BitVec.ofBool (BitVec.ofNat 32 r == s - BitVec.ofNat 32 (1024 * k))).setWidth 32).toInt : ℝ) : EReal)
      = if s = BitVec.ofNat 32 (1024 * k + r) then 1 else 0
  by_cases h : s = BitVec.ofNat 32 (1024 * k + r)
  · rw [if_pos h, beq_iff_eq.mpr (hiff.mpr h)]
    simp
  · rw [if_neg h, beq_eq_false_iff_ne.mpr (mt hiff.mp h)]
    simp

/-- THE CHUNK'S 0/1 MATRIX AT (r, e): row numbers compared with the words less the chunk's base, widened, converted and
    narrowed, is 1 exactly when the word of column e is the number 1024 k + r. -/
theorem sel_entry (v : Vec Ideal S1x1024 .i32) (k : ℕ) (r e : Fin 1024) :
    (truncf .bf16 (sitofp (F := Ideal) .f32 (extui 32 (cmpi .eq (iota .tc S1024x1024 32 [0] iota_S1024x1024_d0_w32)
        (broadcastTo S1024x1024 (subi (shapeCast S1x1024 v shapeCasts_S1x1024_S1x1024)
          (broadcast S1x1024 (Scalar.muli (Scalar.addi 0#32 (Scalar.muli (Scf.iv 0#32 1#32 k) 1#32)) 1024#32)))
          broadcasts_S1x1024_S1024x1024)) natLt_1_32)) bitsLt_bf16_f32 : FVec Ideal S1024x1024 .bf16) (ix2 r e)
      = Cert.Spec.hot (v (ix2 (0 : Fin 1) e)) (1024 * k + r.val) := by
  have h1 : iota .tc S1024x1024 32 [0] iota_S1024x1024_d0_w32 (ix2 r e) = BitVec.ofNat 32 r.val :=
    iota_single_apply _ _ _ _ _ _
  have h2 : broadcastTo S1024x1024 (subi (shapeCast S1x1024 v shapeCasts_S1x1024_S1x1024)
          (broadcast S1x1024 (Scalar.muli (Scalar.addi 0#32 (Scalar.muli (Scf.iv 0#32 1#32 k) 1#32)) 1024#32)))
          broadcasts_S1x1024_S1024x1024 (ix2 r e)
        = IntOp.subi (v (ix2 (0 : Fin 1) e)) (BitVec.ofNat 32 (1024 * k)) := by
    refine (broadcastTo_apply _ _ (ix2 r e) (ix2 (0 : Fin 1) e) fun a => ?_).trans ?_
    · match a with
      | ⟨0, _⟩ => rfl
      | ⟨1, _⟩ => rfl
    · show IntOp.subi (shapeCast S1x1024 v shapeCasts_S1x1024_S1x1024 (ix2 (0 : Fin 1) e))
        (Scalar.muli (Scalar.addi 0#32 (Scalar.muli (Scf.iv 0#32 1#32 k) 1#32)) 1024#32) = _
      rw [shapeCast_self, base_word]
  show ((((IntOp.cmpi .eq (iota .tc S1024x1024 32 [0] iota_S1024x1024_d0_w32 (ix2 r e))
      (broadcastTo S1024x1024 (subi (shapeCast S1x1024 v shapeCasts_S1x1024_S1x1024)
          (broadcast S1x1024 (Scalar.muli (Scalar.addi 0#32 (Scalar.muli (Scf.iv 0#32 1#32 k) 1#32)) 1024#32)))
          broadcasts_S1x1024_S1024x1024 (ix2 r e))).setWidth 32).toInt : ℝ) : EReal) = _
  rw [h1, h2]
  exact hot_entry _ k r.val

/-! ## The gather trip -/

/-- One trip of the gather loop, at scratch entry (b, e): what was there plus the chunk's selected features. -/
theorem pay3_apply (v3 : Vec Ideal S1x1024 .i32) (k : Fin k0_t1_loop.trips) (v35 : Vec Ideal S64x1024 .bf16)
    (v37 : Vec Ideal S64x1024 .f32) (b : Fin 64) (e : Fin 1024) :
    k0_pay3 (F := Ideal) v3 k v35 v37 (ix2 b e)
      = v37 (ix2 b e) + ∑ r : Fin 1024, v35 (ix2 b r) * Cert.Spec.hot (v3 (ix2 (0 : Fin 1) e)) (1024 * k.val + r.val) := by
  unfold k0_pay3
  dsimp only
  rw [shapeCast_self, shapeCast_self]
  refine congrArg (v37 (ix2 b e) + ·) ?_
  refine (Cert.LibPlainDot.matmul_zero_apply (M := 64) (K := 1024) (N := 1024)
    dot_S64x1024_S1024x1024_S64x1024_1_0_0_1_n_n_wf none _ _ b e).trans ?_
  exact Finset.sum_congr rfl fun r _ => congrArg (v35 (ix2 b r) * ·) (sel_entry v3 k.val r e)

/-! ## The scatter trip -/

/-- The scaled gathered features at (b, e): the gathered feature times the product of the edge's two factors (the factors'
    row broadcast down the 64 rows; the narrowing is the identity on extended reals). -/
theorem scaled_entry (v7 v9 : Vec Ideal S1x1024 .f32) (v18 : Vec Ideal S64x1024 .f32) (b : Fin 64) (e : Fin 1024) :
    (truncf .bf16 (mulf v18 (broadcastTo S64x1024 (mulf (shapeCast S1x1024 v7 shapeCasts_S1x1024_S1x1024)
        (shapeCast S1x1024 v9 shapeCasts_S1x1024_S1x1024)) broadcasts_S1x1024_S64x1024)) bitsLt_bf16_f32
        : FVec Ideal S64x1024 .bf16) (ix2 b e)
      = v18 (ix2 b e) * (v7 (ix2 (0 : Fin 1) e) * v9 (ix2 (0 : Fin 1) e)) := by
  rw [shapeCast_self, shapeCast_self]
  show v18 (ix2 b e) * broadcastTo S64x1024 (mulf (F := Ideal) (φ := .f32) v7 v9) broadcasts_S1x1024_S64x1024 (ix2 b e) = _
  refine congrArg (v18 (ix2 b e) * ·) ?_
  refine (broadcastTo_apply _ _ (ix2 b e) (ix2 (0 : Fin 1) e) fun a => ?_).trans rfl
  match a with
  | ⟨0, _⟩ => rfl
  | ⟨1, _⟩ => rfl

/-- One trip of the scatter loop, at entry (0, b, r) of chunk k: what was there plus the edges' scaled gathered features
    selected by the destination words. -/
theorem pay4_apply (v5 : Vec Ideal S1x1024 .i32) (v7 v9 : Vec Ideal S1x1024 .f32) (v18 : Vec Ideal S64x1024 .f32)
    (k : Fin k0_t2_loop.trips) (v36 : Vec Ideal S1x64x1024 .f32) (b : Fin 64) (r : Fin 1024) :
    k0_pay4 (F := Ideal) v5 v7 v9 v18 k v36 (ix3 (0 : Fin 1) b r)
      = v36 (ix3 (0 : Fin 1) b r)
        + ∑ e : Fin 1024, (v18 (ix2 b e) * (v7 (ix2 (0 : Fin 1) e) * v9 (ix2 (0 : Fin 1) e)))
            * Cert.Spec.hot (v5 (ix2 (0 : Fin 1) e)) (1024 * k.val + r.val) := by
  unfold k0_pay4
  dsimp only
  refine (shapeCast_addUnit_apply ![64, 1024] _ _ (ix3 (0 : Fin 1) b r)).trans ?_
  have hi : (fun a : Fin 2 => (ix3 (0 : Fin 1) b r) a.succ) = ix2 b r :=
    funext fun a => by
      match a with
      | ⟨0, _⟩ => rfl
      | ⟨1, _⟩ => rfl
  rw [hi, addf_apply]
  refine congrArg₂ (· + ·) ?_ ?_
  · refine (shapeCast_dropUnit_apply ![64, 1024] v36 _ (ix2 b r)).trans (congrArg v36 ?_)
    funext a
    match a with
    | ⟨0, _⟩ => rfl
    | ⟨1, _⟩ => rfl
    | ⟨2, _⟩ => rfl
  · refine (Cert.LibTransDot.trans_matmul_zero_apply (M := 64) (K := 1024) (N := 1024)
      dot_S64x1024_S1024x1024_S64x1024_1_1_0_0_n_n_wf none _ _ b r).trans ?_
    exact Finset.sum_congr rfl fun e _ => congrArg₂ (· * ·) (scaled_entry v7 v9 v18 b e) (sel_entry v5 k.val r e)

end Cert.KPay

end
-- ==== Proof.KScr.lean ====
/-
  The scratch after the whole gather loop, at the ideal instance: entry (b, e) holds the sum over all 50176 padded nodes of
  the feature x[b, n] times the 0/1 entry "the source word of edge e is n" — the product of the padded features with the
  selection matrix, accumulated chunk by chunk (49 chunks of 1024 nodes) from the zero fill.
-/
import proofs.«406251_j54657753809402_2_alg».proof.Proof.KLoops
import proofs.«406251_j54657753809402_2_alg».proof.Proof.KPay
import proofs.«406251_j54657753809402_2_alg».proof.Proof.Spec
import Idealize.ShloMosaic.Lib.ValueIdx
import Mathlib.Algebra.BigOperators.Fin
import Mathlib.Algebra.BigOperators.Intervals

set_option maxRecDepth 16384

noncomputable section

namespace Cert.KScr

open Idealize.ShloMosaic Idealize.ShloMosaic.ValueIdx Cert.KernelIdeal Cert.KernelIdeal.Gen

/-- The first loop runs 49 trips. -/
private theorem trips_eq : k0_t1_loop.trips = 49 := by decide

/-- Row b of the features, extended by zero past the last padded node, so that it can be read at any natural number. -/
private def xAt (x0 : Vec Ideal S64x50176 .bf16) (b : Fin 64) (n : ℕ) : EReal :=
  if h : n < 50176 then x0 (ix2 b ⟨n, h⟩) else 0

/-- Inside the padded nodes the extended row is the row. -/
private theorem xAt_of_lt (x0 : Vec Ideal S64x50176 .bf16) (b : Fin 64) (n : ℕ) (h : n < 50176) :
    xAt x0 b n = x0 (ix2 b ⟨n, h⟩) := by
  rw [xAt, dif_pos h]

/-- Entry r of chunk k is node 1024 * k + r, which is a padded node. -/
private theorem chunk_lt (k : Fin k0_t1_loop.trips) (r : Fin 1024) : 1024 * k.val + r.val < 50176 := by
  have hk : k.val < 49 := trips_eq ▸ k.isLt
  have hr := r.isLt
  omega

/-- The rectangle of chunk k places (b, r) at (b, 1024 * k + r). -/
private theorem emb_chunk (k : Fin k0_t1_loop.trips) (b : Fin 64) (r : Fin 1024) :
    (Rect.unit (s := S64x50176) (k0_off1 k) S64x1024.size (k0_off1_inb k)).emb (ix2 b r)
      = ix2 b ⟨1024 * k.val + r.val, chunk_lt k r⟩ := by
  funext a
  apply Fin.ext
  rw [Rect.emb_apply, Rect.off_unit, Rect.stride_unit, Nat.one_mul, congrFun (k0_off1_eq k) a]
  match a with
  | ⟨0, _⟩ => exact Nat.zero_add _
  | ⟨1, _⟩ => rfl

/-- The chunk trip k loads, read at (b, r): the feature of row b at node 1024 * k + r. -/
private theorem ld_chunk (x0 : Vec Ideal S64x50176 .bf16) (k : Fin k0_t1_loop.trips) (b : Fin 64) (r : Fin 1024) :
    View.ld x0 (Rect.unit (s := S64x50176) (k0_off1 k) S64x1024.size (k0_off1_inb k)) (ix2 b r)
      = xAt x0 b (1024 * k.val + r.val) := by
  rw [xAt_of_lt x0 b _ (chunk_lt k r), ← emb_chunk k b r]
  rfl

/-- ONE TRIP at (b, e): the scratch gains the chunk's part of the sum. -/
private theorem scr_step (v3 : Vec Ideal S1x1024 .i32) (x0 : Vec Ideal S64x50176 .bf16) (b : Fin 64) (e : Fin 1024)
    (k : Fin k0_t1_loop.trips) :
    Cert.KLoops.scr (F := Ideal) v3 x0 (k.val + 1) (ix2 b e)
      = Cert.KLoops.scr (F := Ideal) v3 x0 k.val (ix2 b e)
        + ∑ r : Fin 1024, xAt x0 b (1024 * k.val + r.val) * Cert.Spec.hot (v3 (ix2 (0 : Fin 1) e)) (1024 * k.val + r.val) := by
  rw [Cert.KLoops.scr_succ, Cert.KPay.pay3_apply]
  congr 1
  refine Finset.sum_congr rfl fun r _ => ?_
  rw [ld_chunk]

/-- AFTER k TRIPS at (b, e): the sum over the first k chunks. -/
private theorem scr_prefix (v3 : Vec Ideal S1x1024 .i32) (x0 : Vec Ideal S64x50176 .bf16) (b : Fin 64) (e : Fin 1024) :
    ∀ k : ℕ, k ≤ k0_t1_loop.trips →
      Cert.KLoops.scr (F := Ideal) v3 x0 k (ix2 b e)
        = ∑ j ∈ Finset.range k, ∑ r : Fin 1024,
            xAt x0 b (1024 * j + r.val) * Cert.Spec.hot (v3 (ix2 (0 : Fin 1) e)) (1024 * j + r.val)
  | 0, _ => by
    rw [Finset.range_zero, Finset.sum_empty]
    exact Cert.KPay.pay2_apply (ix2 b e)
  | k + 1, hk => by
    have hk' : k < k0_t1_loop.trips := hk
    rw [Finset.sum_range_succ, ← scr_prefix v3 x0 b e k (Nat.le_of_lt hk')]
    exact scr_step v3 x0 b e ⟨k, hk'⟩

/-- A sum taken chunk by chunk, c chunks of m consecutive numbers, is the sum over the first m * c numbers. -/
private theorem sum_chunks (f : ℕ → EReal) (m : ℕ) :
    ∀ c : ℕ, ∑ j ∈ Finset.range c, ∑ r : Fin m, f (m * j + r.val) = ∑ n ∈ Finset.range (m * c), f n
  | 0 => by rw [Finset.range_zero, Finset.sum_empty, Nat.mul_zero, Finset.range_zero, Finset.sum_empty]
  | c + 1 => by
    rw [Finset.sum_range_succ, sum_chunks f m c, Nat.mul_succ, Finset.sum_range_add,
      Fin.sum_univ_eq_sum_range (fun r => f (m * c + r)) m]

/-- THE GATHER LOOP'S RESULT at (b, e): the specification's gathered features of the block. -/
theorem scr_gathered (v3 : Vec Ideal S1x1024 .i32) (x0 : Vec Ideal S64x50176 .bf16) (b : Fin 64) (e : Fin 1024) :
    Cert.KLoops.scr (F := Ideal) v3 x0 k0_t1_loop.trips (ix2 b e)
      = Cert.Spec.gathered (fun b n => x0 (ix2 b n)) (fun e => v3 (ix2 (0 : Fin 1) e)) b e := by
  rw [scr_prefix v3 x0 b e k0_t1_loop.trips (Nat.le_refl _), trips_eq,
    sum_chunks (fun n => xAt x0 b n * Cert.Spec.hot (v3 (ix2 (0 : Fin 1) e)) n) 1024 49,
    show 1024 * 49 = 50176 from rfl,
    ← Fin.sum_univ_eq_sum_range (fun n => xAt x0 b n * Cert.Spec.hot (v3 (ix2 (0 : Fin 1) e)) n) 50176]
  unfold Cert.Spec.gathered
  refine Finset.sum_congr rfl fun n _ => ?_
  rw [xAt_of_lt x0 b n.val n.isLt]

end Cert.KScr

end
-- ==== Proof.KPoint.lean ====
/-
  One grid point of the kernel, at the ideal instance.
  The scatter loop visits the 49 chunks of 1024 columns of the output block once each; trip k leaves in chunk k what the
  chunk held plus, at column n, the sum over the block's 1024 edges of the scaled gathered feature times the 0/1 entry "the
  destination word of edge e is n". So after the loop every entry (b, n) of the block holds what it held before plus that
  sum; with the gathered features read off the first loop this is the specification's contribution of the block.
-/
import proofs.«406251_j54657753809402_2_alg».proof.Proof.KLoops
import proofs.«406251_j54657753809402_2_alg».proof.Proof.KPay
import proofs.«406251_j54657753809402_2_alg».proof.Proof.KScr
import proofs.«406251_j54657753809402_2_alg».proof.Proof.Spec
import Idealize.ShloMosaic.Lib.ValueIdx

set_option maxRecDepth 16384

noncomputable section

namespace Cert.KPoint

open Idealize.ShloMosaic Idealize.ShloMosaic.TcCoe Idealize.ShloMosaic.ValueIdx Idealize.SL.Sem
open Cert.KernelIdeal Cert.KernelIdeal.Gen Cert.KLoops

/-- The offsets of chunk k of the output block: column 1024 k of row 0 of slab 0. -/
theorem off2_0 (k : Fin k0_t2_loop.trips) (h : 0 < 3) : k0_off2 k ⟨0, h⟩ = 0 := by rw [k0_off2_eq]; rfl
theorem off2_1 (k : Fin k0_t2_loop.trips) (h : 1 < 3) : k0_off2 k ⟨1, h⟩ = 0 := by rw [k0_off2_eq]; rfl
theorem off2_2 (k : Fin k0_t2_loop.trips) (h : 2 < 3) : k0_off2 k ⟨2, h⟩ = 1024 * k.val := by rw [k0_off2_eq]; rfl

/-- Entry (0, b, r) of chunk k is entry (0, b, 1024 k + r) of the block. -/
theorem chunk_emb (k : Fin k0_t2_loop.trips) (b : Fin 64) (r : Fin 1024) (hn : 1024 * k.val + r.val < 50176) :
    (Rect.unit (s := S1x64x50176) (k0_off2 k) S1x64x1024.size (k0_off2_inb k)).emb (ix3 (0 : Fin 1) b r)
      = ix3 (0 : Fin 1) b (⟨1024 * k.val + r.val, hn⟩ : Fin 50176) := by
  funext a
  apply Fin.ext
  rw [Rect.emb_apply]
  match a with
  | ⟨0, h⟩ => show k0_off2 k ⟨0, h⟩ + 1 * 0 = 0; rw [off2_0]
  | ⟨1, h⟩ => show k0_off2 k ⟨1, h⟩ + 1 * b.val = b.val; rw [off2_1]; omega
  | ⟨2, h⟩ => show k0_off2 k ⟨2, h⟩ + 1 * r.val = 1024 * k.val + r.val; rw [off2_2]; omega

/-- An entry (0, b, n) of the block lies in chunk k exactly when 1024 k ≤ n < 1024 k + 1024. -/
theorem mem_chunk (k : Fin k0_t2_loop.trips) (b : Fin 64) (n : Fin 50176) :
    ix3 (0 : Fin 1) b n ∈ (Rect.unit (s := S1x64x50176) (k0_off2 k) S1x64x1024.size (k0_off2_inb k)).set
      ↔ 1024 * k.val ≤ n.val ∧ n.val < 1024 * k.val + 1024 := by
  rw [Rect.mem_set_unit]
  constructor
  · intro h
    have h2 := h ⟨2, by decide⟩
    rw [off2_2] at h2
    exact h2
  · intro h a
    match a with
    | ⟨0, ha⟩ =>
      rw [off2_0]
      show 0 ≤ 0 ∧ 0 < 0 + 1
      omega
    | ⟨1, ha⟩ =>
      rw [off2_1]
      show 0 ≤ b.val ∧ b.val < 0 + 64
      have := b.isLt
      omega
    | ⟨2, ha⟩ =>
      rw [off2_2]
      exact h

variable (𝒱 : Variants) (c : Dev nD) (bd : Option 𝒱.V) (i : grid0.Coords) (arg2 : Memref sig .tc .vmem S64x50176 .bf16) (harg2 : arg2.IsWhole) (arg3 : Memref sig .tc .vmem S1x1024 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x64x50176 .f32) (harg7 : arg7.IsWhole) (arg8 : Memref sig .tc .vmem S64x1024 .f32) (harg8 : arg8.IsWhole)

/-- The block's scatter sum at column n: over the block's 1024 edges, the scaled gathered feature of row b times the 0/1
    entry "the destination word of edge e is n". -/
def scat (v5 : Vec Ideal S1x1024 .i32) (v7 v9 : Vec Ideal S1x1024 .f32) (v18 : Vec Ideal S64x1024 .f32)
    (b : Fin 64) (n : ℕ) : EReal :=
  ∑ e : Fin 1024, (v18 (ix2 b e) * (v7 (ix2 (0 : Fin 1) e) * v9 (ix2 (0 : Fin 1) e)))
    * Cert.Spec.hot (v5 (ix2 (0 : Fin 1) e)) n

/-- THE SECOND LOOP READ BACK: after the stores of the first k trips over contents G, entry (0, b, n) of the block holds
    what G held there, plus the scatter sum at n when n lies in one of the first k chunks. -/
theorem read_loop2 (v5 : Vec Ideal S1x1024 .i32) (v7 v9 : Vec Ideal S1x1024 .f32) (v18 : Vec Ideal S64x1024 .f32)
    (G : BufTy.Contents (Elt Ideal) arg7.view.ty) :
    ∀ k : ℕ, k ≤ k0_t2_loop.trips → ∀ (b : Fin 64) (n : Fin 50176),
      arg7.view.read (Elt Ideal) (arg7.view.writes (Elt Ideal) G
          (pb_k0_t2 (F := Ideal) 𝒱 c bd i arg2 harg2 arg3 harg3 arg4 harg4 arg5 harg5 arg6 harg6 arg7 harg7 arg8 harg8 v5 v7 v9 v18 G k)) (ix3 (0 : Fin 1) b n)
        = if n.val < 1024 * k then arg7.view.read (Elt Ideal) G (ix3 (0 : Fin 1) b n) + scat v5 v7 v9 v18 b n.val
          else arg7.view.read (Elt Ideal) G (ix3 (0 : Fin 1) b n)
  | 0, _, b, n => by
    rw [show pb_k0_t2 (F := Ideal) 𝒱 c bd i arg2 harg2 arg3 harg3 arg4 harg4 arg5 harg5 arg6 harg6 arg7 harg7 arg8 harg8 v5 v7 v9 v18 G 0 = [] from rfl, View.writes_nil,
      if_neg (by omega)]
  | k + 1, hk, b, n => by
    have hk' : k < k0_t2_loop.trips := hk
    have ih := read_loop2 v5 v7 v9 v18 G k (Nat.le_of_lt hk') b n
    have hs : pb_k0_t2 (F := Ideal) 𝒱 c bd i arg2 harg2 arg3 harg3 arg4 harg4 arg5 harg5 arg6 harg6 arg7 harg7 arg8 harg8 v5 v7 v9 v18 G (k + 1) = _ :=
      pb_k0_t2_succ (F := Ideal) 𝒱 c bd i arg2 harg2 arg3 harg3 arg4 harg4 arg5 harg5 arg6 harg6 arg7 harg7 arg8 harg8 v5 v7 v9 v18 G ⟨k, hk'⟩
    rw [hs, tripL2_eq, List.singleton_append]
    by_cases hin : 1024 * k ≤ n.val ∧ n.val < 1024 * k + 1024
    · -- n lies in chunk k: the trip's store covers it
      have hr : n.val - 1024 * k < 1024 := by omega
      have hn' : 1024 * k + (n.val - 1024 * k) < 50176 := by have := n.isLt; omega
      have hy : ix3 (0 : Fin 1) b n
          = (Rect.unit (s := S1x64x50176) (k0_off2 ⟨k, hk'⟩) S1x64x1024.size (k0_off2_inb ⟨k, hk'⟩)).emb
              (ix3 (0 : Fin 1) b (⟨n.val - 1024 * k, hr⟩ : Fin 1024)) := by
        rw [chunk_emb ⟨k, hk'⟩ b ⟨n.val - 1024 * k, hr⟩ hn']
        have hn : n = (⟨1024 * k + (n.val - 1024 * k), hn'⟩ : Fin 50176) := Fin.ext (by show n.val = 1024 * k + (n.val - 1024 * k); omega)
        exact congrArg (ix3 (0 : Fin 1) b) hn
      have e1 := View.read_writes_cons_emb arg7.view G
        (Rect.unit (s := S1x64x50176) (k0_off2 ⟨k, hk'⟩) S1x64x1024.size (k0_off2_inb ⟨k, hk'⟩))
        (k0_pay4 (F := Ideal) v5 v7 v9 v18 ⟨k, hk'⟩
          (View.readAt (Elt Ideal) arg7.view (Rect.unit (s := S1x64x50176) (k0_off2 ⟨k, hk'⟩) S1x64x1024.size (k0_off2_inb ⟨k, hk'⟩)).toLoadRect
            (arg7.view.writes (Elt Ideal) G (pb_k0_t2 (F := Ideal) 𝒱 c bd i arg2 harg2 arg3 harg3 arg4 harg4 arg5 harg5 arg6 harg6 arg7 harg7 arg8 harg8 v5 v7 v9 v18 G k))))
        (pb_k0_t2 (F := Ideal) 𝒱 c bd i arg2 harg2 arg3 harg3 arg4 harg4 arg5 harg5 arg6 harg6 arg7 harg7 arg8 harg8 v5 v7 v9 v18 G k)
        (ix3 (0 : Fin 1) b (⟨n.val - 1024 * k, hr⟩ : Fin 1024))
      rw [← hy] at e1
      have e2 : View.readAt (Elt Ideal) arg7.view (Rect.unit (s := S1x64x50176) (k0_off2 ⟨k, hk'⟩) S1x64x1024.size (k0_off2_inb ⟨k, hk'⟩)).toLoadRect
            (arg7.view.writes (Elt Ideal) G (pb_k0_t2 (F := Ideal) 𝒱 c bd i arg2 harg2 arg3 harg3 arg4 harg4 arg5 harg5 arg6 harg6 arg7 harg7 arg8 harg8 v5 v7 v9 v18 G k))
            (ix3 (0 : Fin 1) b (⟨n.val - 1024 * k, hr⟩ : Fin 1024))
          = arg7.view.read (Elt Ideal) (arg7.view.writes (Elt Ideal) G (pb_k0_t2 (F := Ideal) 𝒱 c bd i arg2 harg2 arg3 harg3 arg4 harg4 arg5 harg5 arg6 harg6 arg7 harg7 arg8 harg8 v5 v7 v9 v18 G k))
              (ix3 (0 : Fin 1) b n) := by
        rw [hy]; rfl
      rw [e1, Cert.KPay.pay4_apply, e2, ih, if_neg (by omega), if_pos (by omega)]
      unfold scat
      rw [show 1024 * (⟨k, hk'⟩ : Fin k0_t2_loop.trips).val + (⟨n.val - 1024 * k, hr⟩ : Fin 1024).val = n.val from by
        show 1024 * k + (n.val - 1024 * k) = n.val; omega]
    · -- n lies outside chunk k: the trip's store leaves it alone
      have hnot : ix3 (0 : Fin 1) b n
          ∉ (Rect.unit (s := S1x64x50176) (k0_off2 ⟨k, hk'⟩) S1x64x1024.size (k0_off2_inb ⟨k, hk'⟩)).set :=
        fun h => hin ((mem_chunk ⟨k, hk'⟩ b n).mp h)
      refine (View.read_slice_write_of_not_mem
        (Rect.unit (s := S1x64x50176) (k0_off2 ⟨k, hk'⟩) S1x64x1024.size (k0_off2_inb ⟨k, hk'⟩)) _ _ _
        (by rw [Rect.map_emb_univ]; exact hnot)).trans ?_
      rw [ih]
      by_cases h1 : n.val < 1024 * k
      · rw [if_pos h1, if_pos (by omega)]
      · rw [if_neg h1, if_neg (by omega)]

/-- A whole-shape load of a whole buffer holding X reads X. -/
theorem readAt_whole_unread {F : FTy → Type} [FloatOps F] {sp : Space} {S : Shape} {e : EltTy}
    {mr : Memref sig .tc sp S e} (h : mr.IsWhole) {off : Fin S.rank → ℕ} (hz : off = fun _ => 0)
    (inb : ∀ a, off a + S.size a ≤ S.size a) (X : S.Idx → Elt F e) :
    View.readAt (Elt F) mr.view (Rect.unit off S.size inb).toLoadRect (h.unread X) = X := by
  rw [View.readAt_eq_ld, h.read_unread, View.ld_unit_zero hz]

/-- THE SCRATCH AS THE SECOND LOOP FINDS IT: zero-filled, then run through the first loop, it reads as the recursion after
    all its trips. -/
theorem scratch_read {F : FTy → Type} [FloatOps F] (x0 : Vec F S64x50176 .bf16) (x1 : Vec F S1x1024 .i32) :
    View.readAt (Elt F) arg8.view (Rect.unit (s := S64x1024) ![0, 0] S64x1024.size inb_S64x1024_S64x1024_0_0).toLoadRect
      (arg8.view.writes (Elt F) arg8.view.junk
        (pb_k0_t1 (F := F) Variants.none c none i arg2 harg2 arg3 harg3 arg4 harg4 arg5 harg5 arg6 harg6 arg7 harg7 arg8 harg8
            (View.readAt (Elt F) arg3.view (Rect.unit (s := S1x1024) ![0, 0] S1x1024.size inb_S1x1024_S1x1024_0_0).toLoadRect (harg3.unread x1))
            (harg2.unread x0)
            (arg8.view.writes (Elt F) arg8.view.junk [⟨Rect.unit (s := S64x1024) ![0, 0] S64x1024.size inb_S64x1024_S64x1024_0_0, k0_pay2⟩])
            k0_t1_loop.trips ++ [⟨Rect.unit (s := S64x1024) ![0, 0] S64x1024.size inb_S64x1024_S64x1024_0_0, k0_pay2⟩]))
      = scr x1 x0 k0_t1_loop.trips := by
  have hG0 : arg8.view.read (Elt F) (arg8.view.writes (Elt F) arg8.view.junk [⟨Rect.unit (s := S64x1024) ![0, 0] S64x1024.size inb_S64x1024_S64x1024_0_0, k0_pay2 (F := F)⟩]) = k0_pay2 (F := F) := by
    funext y
    have e1 := View.read_writes_cons_emb (Val := Elt F) arg8.view arg8.view.junk (Rect.unit (s := S64x1024) ![0, 0] S64x1024.size inb_S64x1024_S64x1024_0_0) (k0_pay2 (F := F)) [] y
    rw [emb_unit_zero hz2] at e1
    exact e1
  rw [readAt_whole_unread harg3 hz2, View.readAt_eq_ld, View.ld_unit_zero hz2, View.writes_append]
  exact read_loop1 Variants.none c none i arg2 harg2 arg3 harg3 arg4 harg4 arg5 harg5 arg6 harg6 arg7 harg7 arg8 harg8 x1 x0 _ hG0 k0_t1_loop.trips (le_refl _)

/-- The contribution of one edge block to entry (b, n) of its half's slab: the specification's, of the block's staged inputs. -/
def pointPart (x0 : Vec Ideal S64x50176 .bf16) (x1 x2 : Vec Ideal S1x1024 .i32) (x3 x4 : Vec Ideal S1x1024 .f32)
    (b : Fin 64) (n : Fin 50176) : EReal :=
  Cert.Spec.part (fun b n => x0 (ix2 b n)) (fun e => x1 (ix2 (0 : Fin 1) e)) (fun e => x2 (ix2 (0 : Fin 1) e))
    (fun e => x3 (ix2 (0 : Fin 1) e)) (fun e => x4 (ix2 (0 : Fin 1) e)) b n

/-- The scatter sum over the loads the body makes is the block's contribution. -/
theorem scat_eq (x0 : Vec Ideal S64x50176 .bf16) (x1 x2 : Vec Ideal S1x1024 .i32) (x3 x4 : Vec Ideal S1x1024 .f32)
    (v18 : Vec Ideal S64x1024 .f32) (hv : v18 = scr x1 x0 k0_t1_loop.trips) (b : Fin 64) (n : Fin 50176) :
    scat (View.readAt (Elt Ideal) arg4.view (Rect.unit (s := S1x1024) ![0, 0] S1x1024.size inb_S1x1024_S1x1024_0_0).toLoadRect (harg4.unread x2))
        (View.readAt (Elt Ideal) arg5.view (Rect.unit (s := S1x1024) ![0, 0] S1x1024.size inb_S1x1024_S1x1024_0_0).toLoadRect (harg5.unread x3))
        (View.readAt (Elt Ideal) arg6.view (Rect.unit (s := S1x1024) ![0, 0] S1x1024.size inb_S1x1024_S1x1024_0_0).toLoadRect (harg6.unread x4)) v18 b n.val
      = pointPart x0 x1 x2 x3 x4 b n := by
  subst hv
  unfold scat pointPart Cert.Spec.part
  rw [readAt_whole_unread harg4 hz2, readAt_whole_unread harg5 hz2, readAt_whole_unread harg6 hz2]
  refine Finset.sum_congr rfl fun e _ => ?_
  rw [Cert.KScr.scr_gathered]

/-- The pieces the body's run leaves in the output block when the block is carried over from the point before. -/
theorem runB_pieces {F : FTy → Type} [FloatOps F] (hc0 : ¬cond0_0 i) (x0 : Vec F S64x50176 .bf16) (x1 x2 : Vec F S1x1024 .i32)
    (x3 x4 : Vec F S1x1024 .f32) (xo5 : Vec F S1x64x50176 .f32) :
    (kernelRun0_B (F := F) c i arg2 harg2 arg3 harg3 arg4 harg4 arg5 harg5 arg6 harg6 arg7 harg7 arg8 harg8 hc0 x0 x1 x2 x3 x4 xo5).1
      = pb_k0_t2 (F := F) Variants.none c none i arg2 harg2 arg3 harg3 arg4 harg4 arg5 harg5 arg6 harg6 arg7 harg7 arg8 harg8
          (View.readAt (Elt F) arg4.view (Rect.unit (s := S1x1024) ![0, 0] S1x1024.size inb_S1x1024_S1x1024_0_0).toLoadRect (harg4.unread x2))
          (View.readAt (Elt F) arg5.view (Rect.unit (s := S1x1024) ![0, 0] S1x1024.size inb_S1x1024_S1x1024_0_0).toLoadRect (harg5.unread x3))
          (View.readAt (Elt F) arg6.view (Rect.unit (s := S1x1024) ![0, 0] S1x1024.size inb_S1x1024_S1x1024_0_0).toLoadRect (harg6.unread x4))
          (kernelRun0_B.sl.v18 c i arg2 harg2 arg3 harg3 arg4 harg4 arg5 harg5 arg6 harg6 arg7 harg7 arg8 harg8 x0 x1) (harg7.unread xo5) k0_t2_loop.trips := by
  unfold kernelRun0_B
  rfl

/-- The pieces the body's run leaves in the output block at a first point of a half: the zero fill, then the second loop. -/
theorem runA_pieces {F : FTy → Type} [FloatOps F] (hc0 : cond0_0 i) (x0 : Vec F S64x50176 .bf16) (x1 x2 : Vec F S1x1024 .i32)
    (x3 x4 : Vec F S1x1024 .f32) :
    (kernelRun0_A (F := F) c i arg2 harg2 arg3 harg3 arg4 harg4 arg5 harg5 arg6 harg6 arg7 harg7 arg8 harg8 hc0 x0 x1 x2 x3 x4).1
      = pb_k0_t2 (F := F) Variants.none c none i arg2 harg2 arg3 harg3 arg4 harg4 arg5 harg5 arg6 harg6 arg7 harg7 arg8 harg8
          (View.readAt (Elt F) arg4.view (Rect.unit (s := S1x1024) ![0, 0] S1x1024.size inb_S1x1024_S1x1024_0_0).toLoadRect (harg4.unread x2))
          (View.readAt (Elt F) arg5.view (Rect.unit (s := S1x1024) ![0, 0] S1x1024.size inb_S1x1024_S1x1024_0_0).toLoadRect (harg5.unread x3))
          (View.readAt (Elt F) arg6.view (Rect.unit (s := S1x1024) ![0, 0] S1x1024.size inb_S1x1024_S1x1024_0_0).toLoadRect (harg6.unread x4))
          (kernelRun0_A.sl.v18 c i arg2 harg2 arg3 harg3 arg4 harg4 arg5 harg5 arg6 harg6 arg7 harg7 arg8 harg8 x0 x1)
          (arg7.view.writes (Elt F) arg7.view.junk [⟨Rect.unit (s := S1x64x50176) ![0, 0, 0] S1x64x50176.size inb_S1x64x50176_S1x64x50176_0_0_0, k0_pay1⟩]) k0_t2_loop.trips
        ++ [⟨Rect.unit (s := S1x64x50176) ![0, 0, 0] S1x64x50176.size inb_S1x64x50176_S1x64x50176_0_0_0, k0_pay1⟩] := by
  unfold kernelRun0_A
  rfl

theorem trips2 : k0_t2_loop.trips = 49 := by decide

/-- A POINT THAT CARRIES ITS BLOCK OVER: entry (0, b, n) ends at what the point before left plus the block's contribution. -/
theorem out0_B_apply (hc0 : ¬cond0_0 i) (x0 : Vec Ideal S64x50176 .bf16) (x1 x2 : Vec Ideal S1x1024 .i32)
    (x3 x4 : Vec Ideal S1x1024 .f32) (xo5 : Vec Ideal S1x64x50176 .f32) (b : Fin 64) (n : Fin 50176) :
    out0_B_5 (F := Ideal) c i arg2 harg2 arg3 harg3 arg4 harg4 arg5 harg5 arg6 harg6 arg7 harg7 arg8 harg8 hc0 x0 x1 x2 x3 x4 xo5 (ix3 (0 : Fin 1) b n)
      = xo5 (ix3 (0 : Fin 1) b n) + pointPart x0 x1 x2 x3 x4 b n := by
  unfold out0_B_5
  rw [View.read_writes_of_cover VO0_5 VO0_5.junk arg7.view (harg7.unread xo5) _
    (cover0_B_5 c i arg2 harg2 arg3 harg3 arg4 harg4 arg5 harg5 arg6 harg6 arg7 harg7 arg8 harg8 hc0 x0 x1 x2 x3 x4 xo5), runB_pieces,
    read_loop2 Variants.none c none i arg2 harg2 arg3 harg3 arg4 harg4 arg5 harg5 arg6 harg6 arg7 harg7 arg8 harg8 _ _ _ _ (harg7.unread xo5) k0_t2_loop.trips (le_refl _) b n,
    if_pos (by rw [trips2]; have := n.isLt; omega), harg7.read_unread]
  refine congrArg (xo5 (ix3 (0 : Fin 1) b n) + ·) ?_
  refine scat_eq arg4 harg4 arg5 harg5 arg6 harg6 x0 x1 x2 x3 x4 _ ?_ b n
  unfold kernelRun0_B.sl.v18 kernelRun0_B.sl.HS0_1
  exact scratch_read c i arg2 harg2 arg3 harg3 arg4 harg4 arg5 harg5 arg6 harg6 arg7 harg7 arg8 harg8 x0 x1

/-- A FIRST POINT OF A HALF: entry (0, b, n) ends at zero plus the block's contribution. -/
theorem out0_A_apply (hc0 : cond0_0 i) (x0 : Vec Ideal S64x50176 .bf16) (x1 x2 : Vec Ideal S1x1024 .i32)
    (x3 x4 : Vec Ideal S1x1024 .f32) (b : Fin 64) (n : Fin 50176) :
    out0_A_5 (F := Ideal) c i arg2 harg2 arg3 harg3 arg4 harg4 arg5 harg5 arg6 harg6 arg7 harg7 arg8 harg8 hc0 x0 x1 x2 x3 x4 (ix3 (0 : Fin 1) b n)
      = 0 + pointPart x0 x1 x2 x3 x4 b n := by
  have hG : ∀ y, arg7.view.read (Elt Ideal) (arg7.view.writes (Elt Ideal) arg7.view.junk [⟨Rect.unit (s := S1x64x50176) ![0, 0, 0] S1x64x50176.size inb_S1x64x50176_S1x64x50176_0_0_0, k0_pay1 (F := Ideal)⟩]) y = 0 := by
    intro y
    have e1 := View.read_writes_cons_emb (Val := Elt Ideal) arg7.view arg7.view.junk (Rect.unit (s := S1x64x50176) ![0, 0, 0] S1x64x50176.size inb_S1x64x50176_S1x64x50176_0_0_0) (k0_pay1 (F := Ideal)) [] y
    rw [emb_unit_zero hz3] at e1
    rw [e1, Cert.KPay.pay1_apply]
  unfold out0_A_5
  rw [View.read_writes_of_cover VO0_5 VO0_5.junk arg7.view arg7.view.junk _
    (cover0_A_5 c i arg2 harg2 arg3 harg3 arg4 harg4 arg5 harg5 arg6 harg6 arg7 harg7 arg8 harg8 hc0 x0 x1 x2 x3 x4), runA_pieces, View.writes_append,
    read_loop2 Variants.none c none i arg2 harg2 arg3 harg3 arg4 harg4 arg5 harg5 arg6 harg6 arg7 harg7 arg8 harg8 _ _ _ _ _ k0_t2_loop.trips (le_refl _) b n,
    if_pos (by rw [trips2]; have := n.isLt; omega), hG]
  refine congrArg ((0 : EReal) + ·) ?_
  refine scat_eq arg4 harg4 arg5 harg5 arg6 harg6 x0 x1 x2 x3 x4 _ ?_ b n
  unfold kernelRun0_A.sl.v18 kernelRun0_A.sl.HS0_1
  exact scratch_read c i arg2 harg2 arg3 harg3 arg4 harg4 arg5 harg5 arg6 harg6 arg7 harg7 arg8 harg8 x0 x1

end Cert.KPoint

end
-- ==== Proof.KIn.lean ====
/-
  What the kernel's region finds in its input windows, read at an entry.
  Before the region the host pads the node features with 176 zero columns, and pads each per-edge array with 1536 zeros and
  reshapes it to one row. Window 0 stages the whole padded feature array at every grid point; windows 1 to 4 stage, at grid
  point t, the 1024 entries of block t of the padded source words, destination words and the two per-edge factors.
-/
import proofs.«406251_j54657753809402_2_alg».proof.Proof.Gen.KernelIdeal.Frame.Runs
import proofs.«406251_j54657753809402_2_alg».proof.Proof.Spec
import Idealize.ShloMosaic.Lib.ValueIdx
import Idealize.ShloMosaic.Lib.Pipeline.Value
import Idealize.ShloMosaic.Lib.KernelVsHost

set_option maxRecDepth 16384

noncomputable section

namespace Cert.KIn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The program's arguments as index functions. -/
def aX : Fin 64 → Fin 50000 → EReal := fun b n => (m ((c : Thread nD τ).loc main_arg0) : S64x50000.Idx → EReal) (ix2 b n)
def aAdj : Fin 1600000 → EReal := fun e => (m ((c : Thread nD τ).loc main_arg1) : S1600000.Idx → EReal) (ix1 e)
def aW : Fin 1600000 → EReal := fun e => (m ((c : Thread nD τ).loc main_arg2) : S1600000.Idx → EReal) (ix1 e)
def aBias : Fin 50000 → EReal := fun n => (m ((c : Thread nD τ).loc main_arg3) : S50000.Idx → EReal) (ix1 n)
def aSrc : Fin 1600000 → BitVec 32 := fun e => (m ((c : Thread nD τ).loc main_arg4) : S1600000.Idx → BitVec 32) (ix1 e)
def aDst : Fin 1600000 → BitVec 32 := fun e => (m ((c : Thread nD τ).loc main_arg5) : S1600000.Idx → BitVec 32) (ix1 e)

/-- The input windows' blocks at grid point t, at their literal types. -/
abbrev blk0 (t : Fin cfg0.N) : Vec Ideal S64x50176 .bf16 := iblk m c 0 t
abbrev blk1 (t : Fin cfg0.N) : Vec Ideal S1x1024 .i32 := iblk m c 1 t
abbrev blk2 (t : Fin cfg0.N) : Vec Ideal S1x1024 .i32 := iblk m c 2 t
abbrev blk3 (t : Fin cfg0.N) : Vec Ideal S1x1024 .f32 := iblk m c 3 t
abbrev blk4 (t : Fin cfg0.N) : Vec Ideal S1x1024 .f32 := iblk m c 4 t

/-! ## The arrays the region finds -/

/-- The feature array the region finds: the features rounded to the narrow format, padded on the node axis with the
    converted zero word. -/
private theorem V1_eq : (V m c main_v1 : S64x50176.Idx → EReal)
    = pad S64x50176 ![0, 0] ![0, 176] ![0, 0]
        (truncf (F := Ideal) .bf16 (m ((c : Thread nD τ).loc main_arg0) : FVec Ideal S64x50000 .f32) bitsLt_bf16_f32)
        (sitofp (F := Ideal) .bf16 (constantI S_ 32 0#32) : FVec Ideal S_ .bf16)
        pads_S64x50000_S64x50176_000_01760 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  rfl

/-- The source words the region finds: padded with the zero word, as one row. -/
private theorem V3_eq : (V m c main_v3 : S1x1601536.Idx → BitVec 32)
    = shapeCast S1x1601536 (pad S1601536 ![0] ![1536] ![0]
        (m ((c : Thread nD τ).loc main_arg4) : IVec S1600000 32)
        (id (constantI S_ 32 0#32) : IVec S_ 32)
        pads_S1600000_S1601536_015360 h_S_) shapeCasts_S1601536_S1x1601536 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  funext i
  show shapeCast S1x1601536 _ shapeCasts_S1601536_S1x1601536 i = _
  refine congrFun (congrArg (fun x => shapeCast S1x1601536 x shapeCasts_S1601536_S1x1601536) ?_) i
  rfl

/-- The destination words the region finds: padded with the zero word, as one row. -/
private theorem V5_eq : (V m c main_v5 : S1x1601536.Idx → BitVec 32)
    = shapeCast S1x1601536 (pad S1601536 ![0] ![1536] ![0]
        (m ((c : Thread nD τ).loc main_arg5) : IVec S1600000 32)
        (id (constantI S_ 32 0#32) : IVec S_ 32)
        pads_S1600000_S1601536_015360 h_S_) shapeCasts_S1601536_S1x1601536 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  funext i
  show shapeCast S1x1601536 _ shapeCasts_S1601536_S1x1601536 i = _
  refine congrFun (congrArg (fun x => shapeCast S1x1601536 x shapeCasts_S1601536_S1x1601536) ?_) i
  rfl

/-- The first per-edge factor the region finds: padded with the converted zero word, as one row. -/
private theorem V7_eq : (V m c main_v7 : S1x1601536.Idx → EReal)
    = shapeCast S1x1601536 (pad S1601536 ![0] ![1536] ![0]
        (m ((c : Thread nD τ).loc main_arg1) : FVec Ideal S1600000 .f32)
        (sitofp (F := Ideal) .f32 (constantI S_ 32 0#32) : FVec Ideal S_ .f32)
        pads_S1600000_S1601536_015360 h_S_) shapeCasts_S1601536_S1x1601536 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  funext i
  show shapeCast S1x1601536 _ shapeCasts_S1601536_S1x1601536 i = _
  refine congrFun (congrArg (fun x => shapeCast S1x1601536 x shapeCasts_S1601536_S1x1601536) ?_) i
  rfl

/-- The second per-edge factor the region finds: padded with the converted zero word, as one row. -/
private theorem V9_eq : (V m c main_v9 : S1x1601536.Idx → EReal)
    = shapeCast S1x1601536 (pad S1601536 ![0] ![1536] ![0]
        (m ((c : Thread nD τ).loc main_arg2) : FVec Ideal S1600000 .f32)
        (sitofp (F := Ideal) .f32 (constantI S_ 32 0#32) : FVec Ideal S_ .f32)
        pads_S1600000_S1601536_015360 h_S_) shapeCasts_S1601536_S1x1601536 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  funext i
  show shapeCast S1x1601536 _ shapeCasts_S1601536_S1x1601536 i = _
  refine congrFun (congrArg (fun x => shapeCast S1x1601536 x shapeCasts_S1601536_S1x1601536) ?_) i
  rfl

/-! ## The arrays read at an entry -/

/-- A per-edge array padded with 1536 copies of a value and reshaped to one row, read at column p: the array's entry
    below 1600000, the padding value from there on. -/
private theorem padRow_apply {α : Type} (x : S1600000.Idx → α) (v : S_.Idx → α) (p : Fin 1601536) :
    shapeCast S1x1601536 (pad S1601536 ![0] ![1536] ![0] x v pads_S1600000_S1601536_015360 h_S_)
        shapeCasts_S1601536_S1x1601536 (ix2 (0 : Fin 1) p)
      = if h : p.val < 1600000 then x (ix1 ⟨p.val, h⟩) else v (Shape.Idx.first h_S_) := by
  refine (shapeCast_apply _ shapeCasts_S1601536_S1x1601536 (ix2 (0 : Fin 1) p) (ix1 p) (by
    rw [Shape.rowMajor_val_two, Shape.rowMajor_val_one]; show p.val = 0 * 1601536 + p.val; omega)).trans ?_
  by_cases h : p.val < 1600000
  · rw [dif_pos h]
    exact pad_apply_of_inside _ _ _ x v pads_S1600000_S1601536_015360 h_S_ (ix1 p) (ix1 (⟨p.val, h⟩ : Fin 1600000)) (by
      intro a
      have ha : a = 0 := Subsingleton.elim _ _
      subst ha
      show p.val = 0 + p.val * (0 + 1); omega)
  · rw [dif_neg h]
    exact pad_apply_of_not_inside _ _ _ x v pads_S1600000_S1601536_015360 h_S_ (ix1 p) (0 : Fin 1) (by
      intro hin
      have e : (p.val - 0) / (0 + 1) < 1600000 := hin.2.2
      rw [Nat.sub_zero, Nat.zero_add, Nat.div_one] at e
      exact h e)

/-- The zero word converted to a real is zero. -/
private theorem sitofp_zero_word (φ : FTy) (i : S_.Idx) :
    (sitofp (F := Ideal) φ (constantI S_ 32 0#32) : FVec Ideal S_ φ) i = 0 := by
  show (((0#32 : BitVec 32).toInt : ℝ) : EReal) = 0
  simp

/-- The padded feature array at (b, n). -/
private theorem V1_apply (b : Fin 64) (n : Fin 50176) :
    (V m c main_v1 : S64x50176.Idx → EReal) (ix2 b n) = Cert.Spec.xPad (aX m c) b n := by
  rw [V1_eq]
  unfold Cert.Spec.xPad
  by_cases h : n.val < 50000
  · rw [dif_pos h]
    exact pad_apply_of_inside _ _ _ _ _ pads_S64x50000_S64x50176_000_01760 h_S_ (ix2 b n)
      (ix2 b (⟨n.val, h⟩ : Fin 50000)) (by
        intro a
        match a with
        | ⟨0, _⟩ => show b.val = 0 + b.val * (0 + 1); omega
        | ⟨1, _⟩ => show n.val = 0 + n.val * (0 + 1); omega)
  · rw [dif_neg h]
    refine (pad_apply_of_not_inside _ _ _ _ _ pads_S64x50000_S64x50176_000_01760 h_S_ (ix2 b n) (1 : Fin 2) (by
      intro hin
      have e : (n.val - 0) / (0 + 1) < 50000 := hin.2.2
      rw [Nat.sub_zero, Nat.zero_add, Nat.div_one] at e
      exact h e)).trans ?_
    exact sitofp_zero_word .bf16 _

/-- The padded source words at column p. -/
private theorem V3_apply (p : Fin 1601536) :
    (V m c main_v3 : S1x1601536.Idx → BitVec 32) (ix2 (0 : Fin 1) p) = Cert.Spec.wordPad (aSrc m c) p := by
  rw [V3_eq, padRow_apply]
  rfl

/-- The padded destination words at column p. -/
private theorem V5_apply (p : Fin 1601536) :
    (V m c main_v5 : S1x1601536.Idx → BitVec 32) (ix2 (0 : Fin 1) p) = Cert.Spec.wordPad (aDst m c) p := by
  rw [V5_eq, padRow_apply]
  rfl

/-- The padded first per-edge factor at column p. -/
private theorem V7_apply (p : Fin 1601536) :
    (V m c main_v7 : S1x1601536.Idx → EReal) (ix2 (0 : Fin 1) p) = Cert.Spec.realPad (aAdj m c) p := by
  rw [V7_eq, padRow_apply, sitofp_zero_word]
  rfl

/-- The padded second per-edge factor at column p. -/
private theorem V9_apply (p : Fin 1601536) :
    (V m c main_v9 : S1x1601536.Idx → EReal) (ix2 (0 : Fin 1) p) = Cert.Spec.realPad (aW m c) p := by
  rw [V9_eq, padRow_apply, sitofp_zero_word]
  rfl

/-! ## The windows' block indices, decided over the grid

Window 0's block index is (0, 0) at every point; the block index of windows 1 to 4 at the point of coordinates (i, j) is
(0, 782 i + j), which is the point's own number. -/

private theorem idx0 : ∀ t : Fin cfg0.N, win0_0.index t (0 : Fin 2) = 0 ∧ win0_0.index t (1 : Fin 2) = 0 :=
  (by decide +kernel : ∀ t : Fin grid0.N, _)
private theorem idx1 : ∀ t : Fin cfg0.N, win0_1.index t (0 : Fin 2) = 0 ∧ win0_1.index t (1 : Fin 2) = t.val :=
  (by decide +kernel : ∀ t : Fin grid0.N, _)
private theorem idx2 : ∀ t : Fin cfg0.N, win0_2.index t (0 : Fin 2) = 0 ∧ win0_2.index t (1 : Fin 2) = t.val :=
  (by decide +kernel : ∀ t : Fin grid0.N, _)
private theorem idx3 : ∀ t : Fin cfg0.N, win0_3.index t (0 : Fin 2) = 0 ∧ win0_3.index t (1 : Fin 2) = t.val :=
  (by decide +kernel : ∀ t : Fin grid0.N, _)
private theorem idx4 : ∀ t : Fin cfg0.N, win0_4.index t (0 : Fin 2) = 0 ∧ win0_4.index t (1 : Fin 2) = t.val :=
  (by decide +kernel : ∀ t : Fin grid0.N, _)

/-! ## The blocks

A block's coordinate on an axis is the block index times the block's extent plus the coordinate inside the block. -/

/-- Window 0 at any point: the padded features. -/
theorem blk0_apply (t : Fin cfg0.N) (b : Fin 64) (n : Fin 50176) :
    blk0 m c t (ix2 b n) = Cert.Spec.xPad (aX m c) b n := by
  obtain ⟨h0, h1⟩ := idx0 t
  have hemb : ((cfg0.win 0).blk t).view.emb (ix2 b n) = ix2 b n := by
    funext a
    apply Fin.ext
    match a with
    | ⟨0, _⟩ => show win0_0.index t (0 : Fin 2) * 64 + 1 * b.val = b.val; rw [h0]; omega
    | ⟨1, _⟩ => show win0_0.index t (1 : Fin 2) * 50176 + 1 * n.val = n.val; rw [h1]; omega
  show (V m c main_v1 : S64x50176.Idx → EReal) (((cfg0.win 0).blk t).view.emb (ix2 b n)) = _
  rw [hemb]
  exact V1_apply m c b n

/-- Window 1 at point t: block t of the padded source words. -/
theorem blk1_apply (t : Fin cfg0.N) (ht : t.val < 1564) (e : Fin 1024) :
    blk1 m c t (ix2 (0 : Fin 1) e) = Cert.Spec.blockOf (Cert.Spec.wordPad (aSrc m c)) ⟨t.val, ht⟩ e := by
  obtain ⟨h0, h1⟩ := idx1 t
  have hemb : ((cfg0.win 1).blk t).view.emb (ix2 (0 : Fin 1) e)
      = ix2 (0 : Fin 1) (⟨1024 * t.val + e.val, by have := e.isLt; omega⟩ : Fin 1601536) := by
    funext a
    apply Fin.ext
    match a with
    | ⟨0, _⟩ => show win0_1.index t (0 : Fin 2) * 1 + 1 * 0 = 0; rw [h0]
    | ⟨1, _⟩ => show win0_1.index t (1 : Fin 2) * 1024 + 1 * e.val = 1024 * t.val + e.val; rw [h1]; omega
  show (V m c main_v3 : S1x1601536.Idx → BitVec 32) (((cfg0.win 1).blk t).view.emb (ix2 (0 : Fin 1) e)) = _
  rw [hemb]
  exact V3_apply m c _

/-- Window 2 at point t: block t of the padded destination words. -/
theorem blk2_apply (t : Fin cfg0.N) (ht : t.val < 1564) (e : Fin 1024) :
    blk2 m c t (ix2 (0 : Fin 1) e) = Cert.Spec.blockOf (Cert.Spec.wordPad (aDst m c)) ⟨t.val, ht⟩ e := by
  obtain ⟨h0, h1⟩ := idx2 t
  have hemb : ((cfg0.win 2).blk t).view.emb (ix2 (0 : Fin 1) e)
      = ix2 (0 : Fin 1) (⟨1024 * t.val + e.val, by have := e.isLt; omega⟩ : Fin 1601536) := by
    funext a
    apply Fin.ext
    match a with
    | ⟨0, _⟩ => show win0_2.index t (0 : Fin 2) * 1 + 1 * 0 = 0; rw [h0]
    | ⟨1, _⟩ => show win0_2.index t (1 : Fin 2) * 1024 + 1 * e.val = 1024 * t.val + e.val; rw [h1]; omega
  show (V m c main_v5 : S1x1601536.Idx → BitVec 32) (((cfg0.win 2).blk t).view.emb (ix2 (0 : Fin 1) e)) = _
  rw [hemb]
  exact V5_apply m c _

/-- Window 3 at point t: block t of the padded first per-edge factor. -/
theorem blk3_apply (t : Fin cfg0.N) (ht : t.val < 1564) (e : Fin 1024) :
    blk3 m c t (ix2 (0 : Fin 1) e) = Cert.Spec.blockOf (Cert.Spec.realPad (aAdj m c)) ⟨t.val, ht⟩ e := by
  obtain ⟨h0, h1⟩ := idx3 t
  have hemb : ((cfg0.win 3).blk t).view.emb (ix2 (0 : Fin 1) e)
      = ix2 (0 : Fin 1) (⟨1024 * t.val + e.val, by have := e.isLt; omega⟩ : Fin 1601536) := by
    funext a
    apply Fin.ext
    match a with
    | ⟨0, _⟩ => show win0_3.index t (0 : Fin 2) * 1 + 1 * 0 = 0; rw [h0]
    | ⟨1, _⟩ => show win0_3.index t (1 : Fin 2) * 1024 + 1 * e.val = 1024 * t.val + e.val; rw [h1]; omega
  show (V m c main_v7 : S1x1601536.Idx → EReal) (((cfg0.win 3).blk t).view.emb (ix2 (0 : Fin 1) e)) = _
  rw [hemb]
  exact V7_apply m c _

/-- Window 4 at point t: block t of the padded second per-edge factor. -/
theorem blk4_apply (t : Fin cfg0.N) (ht : t.val < 1564) (e : Fin 1024) :
    blk4 m c t (ix2 (0 : Fin 1) e) = Cert.Spec.blockOf (Cert.Spec.realPad (aW m c)) ⟨t.val, ht⟩ e := by
  obtain ⟨h0, h1⟩ := idx4 t
  have hemb : ((cfg0.win 4).blk t).view.emb (ix2 (0 : Fin 1) e)
      = ix2 (0 : Fin 1) (⟨1024 * t.val + e.val, by have := e.isLt; omega⟩ : Fin 1601536) := by
    funext a
    apply Fin.ext
    match a with
    | ⟨0, _⟩ => show win0_4.index t (0 : Fin 2) * 1 + 1 * 0 = 0; rw [h0]
    | ⟨1, _⟩ => show win0_4.index t (1 : Fin 2) * 1024 + 1 * e.val = 1024 * t.val + e.val; rw [h1]; omega
  show (V m c main_v9 : S1x1601536.Idx → EReal) (((cfg0.win 4).blk t).view.emb (ix2 (0 : Fin 1) e)) = _
  rw [hemb]
  exact V9_apply m c _

end Cert.KIn

end
-- ==== Proof.KGrid.lean ====
/-
  The output block across the grid. Each half of the grid (782 points) resets its slab's block at its first point and adds
  one edge block's contribution at every point; so after point 782 q + j the block holds, at entry (0, b, n), zero plus the
  contributions of edge blocks 782 q … 782 q + j, each the specification's contribution of that block of the padded inputs.
-/
import proofs.«406251_j54657753809402_2_alg».proof.Proof.KPoint
import proofs.«406251_j54657753809402_2_alg».proof.Proof.KIn
import Mathlib.Algebra.BigOperators.Fin

set_option maxRecDepth 16384

noncomputable section

namespace Cert.KGrid

open Idealize.ShloMosaic Idealize.ShloMosaic.TcCoe Idealize.ShloMosaic.ValueIdx Idealize.SL.Sem
open Cert.KernelIdeal Cert.KernelIdeal.Gen Cert.KIn Cert.KPoint

variable (m : (ℓ : Loc nD τ sig) → Buf (Elt Ideal) ℓ) (c : Dev nD)

/-- The contribution of edge block t to entry (b, n) of a slab (zero past the last block). -/
def addend (t : ℕ) (b : Fin 64) (n : Fin 50176) : EReal :=
  if h : t < 1564 then Cert.Spec.partOf (aX m c) (aAdj m c) (aW m c) (aSrc m c) (aDst m c) ⟨t, h⟩ b n else 0

/-- At grid point t the body's staged inputs are block t of the padded inputs: the point's contribution is the block's. -/
theorem pointPart_blk (t : Fin cfg0.N) (ht : t.val < 1564) (b : Fin 64) (n : Fin 50176) :
    pointPart (blk0 m c t) (blk1 m c t) (blk2 m c t) (blk3 m c t) (blk4 m c t) b n = addend m c t.val b n := by
  have e0 : (fun b n => blk0 m c t (ix2 b n)) = Cert.Spec.xPad (aX m c) :=
    funext fun b => funext fun n => blk0_apply m c t b n
  have e1 : (fun e => blk1 m c t (ix2 (0 : Fin 1) e)) = Cert.Spec.blockOf (Cert.Spec.wordPad (aSrc m c)) ⟨t.val, ht⟩ :=
    funext fun e => blk1_apply m c t ht e
  have e2 : (fun e => blk2 m c t (ix2 (0 : Fin 1) e)) = Cert.Spec.blockOf (Cert.Spec.wordPad (aDst m c)) ⟨t.val, ht⟩ :=
    funext fun e => blk2_apply m c t ht e
  have e3 : (fun e => blk3 m c t (ix2 (0 : Fin 1) e)) = Cert.Spec.blockOf (Cert.Spec.realPad (aAdj m c)) ⟨t.val, ht⟩ :=
    funext fun e => blk3_apply m c t ht e
  have e4 : (fun e => blk4 m c t (ix2 (0 : Fin 1) e)) = Cert.Spec.blockOf (Cert.Spec.realPad (aW m c)) ⟨t.val, ht⟩ :=
    funext fun e => blk4_apply m c t ht e
  unfold pointPart addend Cert.Spec.partOf
  rw [dif_pos ht, e0, e1, e2, e3, e4]

/-- The block's contents depend on the point's number only. -/
theorem outsAt_congr (n1 n2 : ℕ) (h1 : n1 < cfg0.N) (h2 : n2 < cfg0.N) (e : n1 = n2) :
    outsAt0 (F := Ideal) m c n1 h1 = outsAt0 (F := Ideal) m c n2 h2 := by
  subst e; rfl

/-- THE ACCUMULATION: after point 782 q + j (j < 782) entry (0, b, n) of the block holds zero plus the contributions of the
    edge blocks 782 q, …, 782 q + j. -/
theorem outsAt_run (q : ℕ) : ∀ (j : ℕ) (hj : j < 782) (h : 782 * q + j < cfg0.N) (b : Fin 64) (n : Fin 50176),
    outsAt0 (F := Ideal) m c (782 * q + j) h (ix3 (0 : Fin 1) b n)
      = 0 + ∑ s ∈ Finset.range (j + 1), addend m c (782 * q + s) b n
  | 0, _, h, b, n => by
    have hN : 782 * q + 0 < 1564 := lt_of_lt_of_eq h (show cfg0.N = 1564 from N_0)
    have h0 : (782 * q + 0) % 782 = 0 := by omega
    refine (congrFun (outsAt0_A m c ⟨782 * q + 0, h⟩ h0) _).trans ?_
    rw [out0_A_apply, Finset.sum_range_one]
    exact congrArg ((0 : EReal) + ·) (pointPart_blk m c ⟨782 * q + 0, h⟩ hN b n)
  | j + 1, hj, h, b, n => by
    have hN : 782 * q + (j + 1) < 1564 := lt_of_lt_of_eq h (show cfg0.N = 1564 from N_0)
    have hne : ¬(782 * q + (j + 1)) % 782 = 0 := by omega
    have ih := outsAt_run q j (by omega) (by omega) b n
    refine (congrFun (outsAt0_B m c ⟨782 * q + (j + 1), h⟩ hne) _).trans ?_
    rw [out0_B_apply,
      outsAt_congr m c _ (782 * q + j) _ (by omega) (by show 782 * q + (j + 1) - 1 = 782 * q + j; omega),
      ih, Finset.sum_range_succ _ (j + 1), add_assoc]
    exact congrArg (fun z => (0 : EReal) + (∑ s ∈ Finset.range (j + 1), addend m c (782 * q + s) b n + z))
      (pointPart_blk m c ⟨782 * q + (j + 1), h⟩ hN b n)

/-- At the last point of half q the block holds zero plus the specification's sum of the half. -/
theorem outsAt_half (q : Fin 2) (h : 782 * q.val + 781 < cfg0.N) (b : Fin 64) (n : Fin 50176) :
    outsAt0 (F := Ideal) m c (782 * q.val + 781) h (ix3 (0 : Fin 1) b n)
      = 0 + Cert.Spec.halfSum (aX m c) (aAdj m c) (aW m c) (aSrc m c) (aDst m c) q b n := by
  rw [outsAt_run m c q.val 781 (by omega) h b n]
  refine congrArg ((0 : EReal) + ·) ?_
  unfold Cert.Spec.halfSum
  rw [← Fin.sum_univ_eq_sum_range (fun s => addend m c (782 * q.val + s) b n) 782]
  refine Finset.sum_congr rfl fun i _ => ?_
  unfold addend Cert.Spec.blockIdx
  have hi : 782 * q.val + i.val < 1564 := by have := q.isLt; have := i.isLt; omega
  rw [dif_pos hi]

end Cert.KGrid

end
-- ==== Proof.KTail.lean ====
/-
  The host operations after the kernel's region, read at an entry: the two halves' slabs are summed over the leading axis
  (from zero), the 176 padded node columns are sliced off, the bias is added along the rows, and the result is clipped below
  at zero.
-/
import proofs.«406251_j54657753809402_2_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KTail

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The program's result buffer after the tail, the region's output array after the region, and the bias argument, at their
    literal types. -/
def tailOut (c : Dev nD) : S64x50000.Idx → EReal :=
  Pipeline.afterTail₀ cfgs (dats m) 0 (V0 m) [hostOps1, hostOps1_1] c main_v16
def slabs (c : Dev nD) : S2x64x50176.Idx → EReal := (dats m 0 c).arrAt 5 cfg0.N
def biasArr (c : Dev nD) : S50000.Idx → EReal := m ((c : Thread nD τ).loc main_arg3)

/-! ## The tail's operations read at an entry, one at a time, over any arrays -/

/-- The sum over the leading axis of a [2, 64, 50176] array, started from the zero constant, at (b, n'). -/
private theorem reduce_read (x : S2x64x50176.Idx → EReal) (b : Fin 64) (n' : Fin 50176) :
    Host.reduceAdd (F := Ideal) (φ := .f32) x (constant S_ .f32 0x00000000#32) Facts₀.reducesTo_S2x64x50176_S64x50176_d0 Facts₀.h_S_ (ix2 b n')
      = 0 + ∑ h : Fin 2, x (ix3 h b n') := by
  have hr : S2x64x50176.Reduces [0] S64x50176 := by decide
  show Ideal.hostReduceAdd Facts₀.reducesTo_S2x64x50176_S64x50176_d0 x (Ideal.ofBits .f32 0x00000000#32) (ix2 b n') = _
  rw [Ideal.hostReduceAdd_single _ hr, Ideal.ofBits_zero_f32]
  congr 1
  refine Finset.sum_congr rfl fun k _ => congrArg x ?_
  funext a
  apply Fin.ext
  match a with
  | ⟨0, _⟩ => rfl
  | ⟨1, _⟩ => rfl
  | ⟨2, _⟩ => rfl

/-- A slice at offsets (0, 0) keeps the entry: (b, n) of the [64, 50000] slice is (b, n) of the [64, 50176] operand. -/
private theorem slice_read (y : S64x50176.Idx → EReal) (b : Fin 64) (n : Fin 50000) :
    extractStridedSlice S64x50000 ![0, 0] y Facts₀.slices_S64x50176_S64x50000_0_0 (ix2 b n)
      = y (ix2 b (⟨n.val, by have := n.isLt; omega⟩ : Fin 50176)) := by
  refine extractStridedSlice_apply _ y _ (ix2 b n) _ fun a => ?_
  match a with
  | ⟨0, _⟩ => exact (Nat.zero_add _).symm
  | ⟨1, _⟩ => exact (Nat.zero_add _).symm

/-- The bias laid along the rows: entry (b, n) of its two broadcasts, [50000] → [1, 50000] → [64, 50000], is the bias at n. -/
private theorem bias_read (v : S50000.Idx → EReal) (b : Fin 64) (n : Fin 50000) :
    broadcastInDim S64x50000 ![0, 1] Facts₀.bcast_S1x50000_S64x50000_0_1
        (broadcastInDim S1x50000 ![1] Facts₀.bcast_S50000_S1x50000_1 v) (ix2 b n) = v (ix1 n) := by
  rw [broadcastInDim_apply ![0, 1] _ _ (ix2 b n) (ix2 (0 : Fin 1) n) (fun a => by
    match a with
    | ⟨0, _⟩ => rfl
    | ⟨1, _⟩ => rfl)]
  exact broadcastInDim_apply ![1] _ v (ix2 (0 : Fin 1) n) (ix1 n) (fun a => by
    match a with
    | ⟨0, _⟩ => rfl)

/-- The zero constant broadcast to [64, 50000] is 0 at every entry. -/
private theorem zero_read (b : Fin 64) (n : Fin 50000) :
    broadcastInDim S64x50000 ![] Facts₀.bcast_S_S64x50000 (constant (F := Ideal) S_ .f32 0x00000000#32) (ix2 b n) = 0 :=
  Ideal.ofBits_zero_f32

/-- THE TAIL AT (b, n): the two slabs of the region's output array added from zero at node n, plus the bias, clipped. -/
theorem tail_apply (c : Dev nD) (b : Fin 64) (n : Fin 50000) :
    tailOut m c (ix2 b n)
      = max ((0 + ∑ h : Fin 2, slabs m c (ix3 h b (⟨n.val, by have := n.isLt; omega⟩ : Fin 50176)))
            + biasArr m c (ix1 n)) 0 := by
  -- the tail is the nine operations of the two stretches, run from the contents the region leaves
  unfold tailOut Pipeline.afterTail₀
  simp only [hostOps1, hostOps1_1, List.flatten_cons, List.flatten_nil, List.append_nil, List.cons_append, List.nil_append]
  after_results
  -- the summed operand is the region's output array (window 5) as the region leaves it; the bias is no window's array
  -- and no operation before the region writes it, so it is the launched argument
  have e1 : Pipeline.withArrays (cfgs 0).spec c (V0 m c) (fun w => (dats m 0 c).arrAt w (cfgs 0).N) (Proc.devRef .tc main_v10)
      = slabs m c := Pipeline.withArrays_arr spec0 launch0.win.arr_inj c _ _ 5
  have e2 : Pipeline.withArrays (cfgs 0).spec c (V0 m c) (fun w => (dats m 0 c).arrAt w (cfgs 0).N) (Proc.devRef .tc main_arg3)
      = biasArr m c :=
    (Pipeline.withArrays_of_ne _ c (V0 m c) _ main_arg3 (by exact (by decide : ∀ w, Pipeline.arrRef spec0 w ≠ main_arg3))).trans
      (V_main_arg3 m c)
  rw [e1, e2]
  -- the transports along the called function's typed references are identities
  simp only [StableHlo.TRef.ofBuf, StableHlo.TRef.toBuf, cast_eq]
  -- at the ideal values the clip is max and the bias add is +; then each remaining operation is read at (b, n)
  simp only [maximumf, addf, Ideal.maximumf_def, Ideal.addf_def]
  rw [slice_read, reduce_read, bias_read, zero_read]

end Cert.KTail

end
-- ==== Proof.KFinal.lean ====
/-
  The region's output array after the run, and the kernel's result.
  The output window's block at a grid point of half q is slab q of the [2, 64, 50176] array, written back at the half's last
  point; so the array ends holding, at (q, b, n), zero plus the specification's sum of half q. The host's tail then adds the
  two slabs from zero, drops the padded nodes, adds the bias and clips below at zero: the specification's kernelOut.
-/
import proofs.«406251_j54657753809402_2_alg».proof.Proof.KGrid
import proofs.«406251_j54657753809402_2_alg».proof.Proof.KTail

set_option maxRecDepth 16384

noncomputable section

namespace Cert.KFinal

open Idealize.ShloMosaic Idealize.ShloMosaic.TcCoe Idealize.ShloMosaic.ValueIdx Idealize.SL.Sem
open Cert.KernelIdeal Cert.KernelIdeal.Gen Cert.KIn Cert.KGrid

variable (m : (ℓ : Loc nD τ sig) → Buf (Elt Ideal) ℓ) (c : Dev nD)

/-- What the output array ends holding: at (q, b, n), zero plus half q's sum. -/
def slabFn : S2x64x50176.Idx → EReal := fun y =>
  0 + Cert.Spec.halfSum (aX m c) (aAdj m c) (aW m c) (aSrc m c) (aDst m c)
    (⟨(y 0).val, (y 0).isLt⟩ : Fin 2) (⟨(y 1).val, (y 1).isLt⟩ : Fin 64) (⟨(y 2).val, (y 2).isLt⟩ : Fin 50176)

/-- The output window's block index at point t is (t / 782, 0, 0) — decided over the grid. -/
theorem idx5 : ∀ t : Fin cfg0.N, win0_5.index t (0 : Fin 3) = t.val / 782 ∧ win0_5.index t (1 : Fin 3) = 0
    ∧ win0_5.index t (2 : Fin 3) = 0 :=
  (by decide +kernel : ∀ t : Fin grid0.N, _)

/-- What point t writes back is what the body left in the block. -/
theorem flushed5 (t : Fin cfg0.N) :
    (dats m 0 c).flushed 5 t = (cfg0.win 5).cut (grid0.coords t) (outsAt0 (F := Ideal) m c t.val t.isLt) := by
  show (cfg0.win 5).cut (grid0.coords t) ((dats m 0 c).after 5 t) = _
  rw [after0_5]

/-- Entry (0, b, n) of the block at point t is entry (t / 782, b, n) of the array. -/
theorem blk5_emb (t : Fin cfg0.N) (b : Fin 64) (n : Fin 50176) (hq : t.val / 782 < 2) :
    ((cfg0.win 5).blk t).view.emb (ix3 (0 : Fin 1) b n) = ix3 (⟨t.val / 782, hq⟩ : Fin 2) b n := by
  obtain ⟨h0, h1, h2⟩ := idx5 t
  funext a
  apply Fin.ext
  match a with
  | ⟨0, _⟩ => show win0_5.index t (0 : Fin 3) * 1 + 1 * 0 = t.val / 782; rw [h0]; omega
  | ⟨1, _⟩ => show win0_5.index t (1 : Fin 3) * 64 + 1 * b.val = b.val; rw [h1]; omega
  | ⟨2, _⟩ => show win0_5.index t (2 : Fin 3) * 50176 + 1 * n.val = n.val; rw [h2]; omega

/-- WHAT A FLUSHING POINT WRITES BACK is its block of the slab function. -/
theorem flushed5_eq (t : Fin cfg0.N) (hf : (cfg0.win 5).flush t = true) :
    (dats m 0 c).flushed 5 t = ((cfg0.win 5).blk t).view.read (Elt Ideal) (slabFn m c) := by
  have hN : t.val < 1564 := lt_of_lt_of_eq t.isLt (show cfg0.N = 1564 from N_0)
  have h781 : t.val % 782 = 781 := (flush0_5 t).mp hf
  have hq : t.val / 782 < 2 := by omega
  rw [flushed5]
  funext j
  obtain ⟨z, b, n, rfl⟩ : ∃ (z : Fin 1) (b : Fin 64) (n : Fin 50176), j = ix3 z b n := ⟨j 0, j 1, j 2, eq_ix3 j⟩
  obtain rfl : z = 0 := Subsingleton.elim _ _
  show outsAt0 (F := Ideal) m c t.val t.isLt (ix3 (0 : Fin 1) b n) = slabFn m c (((cfg0.win 5).blk t).view.emb (ix3 (0 : Fin 1) b n))
  rw [blk5_emb t b n hq,
    outsAt_congr m c t.val (782 * (t.val / 782) + 781) t.isLt
      (lt_of_lt_of_eq (by omega : 782 * (t.val / 782) + 781 < 1564) (show (1564 : ℕ) = cfg0.N from N_0.symm)) (by omega),
    outsAt_half m c ⟨t.val / 782, hq⟩ _ b n]
  rfl

/-- An index of the array lies in point t's block exactly when its slab is the block's. -/
theorem mem_blk5 (t : Fin cfg0.N) (y : S2x64x50176.Idx) :
    y ∈ ((cfg0.win 5).blk t).view.set
      ↔ ∀ a : Fin 3, win0_5.index t a * S1x64x50176.size a ≤ (y a).val
          ∧ (y a).val < win0_5.index t a * S1x64x50176.size a + S1x64x50176.size a := by
  show y ∈ ((View.whole main_v10).slice (win0_5.rect t)).set ↔ _
  rw [View.set_slice_whole, Rect.mem_set_unit]
  exact Iff.rfl

/-- Every index of the array lies in the block of its slab's last point, which writes back. -/
theorem cover5 (y : S2x64x50176.Idx) : ∃ t : Fin cfg0.N, (cfg0.win 5).flush t = true ∧ y ∈ ((cfg0.win 5).blk t).view.set := by
  have h0 : (y 0).val < 2 := (y 0).isLt
  have h1 : (y 1).val < 64 := (y 1).isLt
  have h2 : (y 2).val < 50176 := (y 2).isLt
  have hN : 782 * (y 0).val + 781 < cfg0.N := by rw [show cfg0.N = 1564 from N_0]; omega
  refine ⟨⟨782 * (y 0).val + 781, hN⟩, (flush0_5 _).mpr (by show (782 * (y 0).val + 781) % 782 = 781; omega), ?_⟩
  rw [mem_blk5]
  obtain ⟨e0, e1, e2⟩ := idx5 ⟨782 * (y 0).val + 781, hN⟩
  have e0' : win0_5.index ⟨782 * (y 0).val + 781, hN⟩ (0 : Fin 3) = (y 0).val := by
    rw [e0]; show (782 * (y 0).val + 781) / 782 = (y 0).val; omega
  intro a
  match a with
  | ⟨0, _⟩ =>
    show win0_5.index _ (0 : Fin 3) * 1 ≤ (y 0).val ∧ (y 0).val < win0_5.index _ (0 : Fin 3) * 1 + 1
    rw [e0']; omega
  | ⟨1, _⟩ =>
    show win0_5.index _ (1 : Fin 3) * 64 ≤ (y 1).val ∧ (y 1).val < win0_5.index _ (1 : Fin 3) * 64 + 64
    rw [e1]; omega
  | ⟨2, _⟩ =>
    show win0_5.index _ (2 : Fin 3) * 50176 ≤ (y 2).val ∧ (y 2).val < win0_5.index _ (2 : Fin 3) * 50176 + 50176
    rw [e2]; omega

/-- THE OUTPUT ARRAY AFTER THE RUN is the slab function. -/
theorem slabs_eq : Cert.KTail.slabs m c = slabFn m c :=
  (dats m 0 c).arrAt_eq_of_cover 5 (slabFn m c) (fun t hf => flushed5_eq m c t hf) (cover5)

/-- THE KERNEL'S RESULT at (b, n) is the specification's kernelOut of the arguments. -/
theorem kernel_apply (b : Fin 64) (n : Fin 50000) :
    Cert.KTail.tailOut m c (ix2 b n)
      = Cert.Spec.kernelOut (aX m c) (aAdj m c) (aW m c) (aBias m c) (aSrc m c) (aDst m c) b n := by
  rw [Cert.KTail.tail_apply, slabs_eq]
  unfold Cert.Spec.kernelOut slabFn
  simp only [zero_add]
  rfl

end Cert.KFinal

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.LibColGather.lean ====
/-
  Reading a column gather and a four-column join at an index.
  A column gather takes, for every `t`, the column `idx[t]` of a two-axis operand, whole: the start index is read signed
  and clamped into the operand's columns, so result entry `(n, t)` is the operand's entry in row `n` at that column.
  Four one-column arrays joined along the column axis give a four-column array whose column `k` is array `k`.
  Beside them: an index is determined by its coordinates, and a small natural number written as a 32-bit word is
  non-negative as a signed number and reads back as itself.
-/
import Idealize.ShloMosaic.PureOps.Ideal
import Idealize.ShloMosaic.Lib.ValueIdx
import Idealize.ShloMosaic.Lib.Pipeline.Value

noncomputable section

namespace Cert.LibColGather

open Idealize.ShloMosaic Idealize.ShloMosaic.ValueIdx

/-! ## Two indices are equal when their coordinates are -/

/-- Two rank-1 indices with the same coordinate are equal. -/
theorem ext1 {n0 : Nat} {i i' : (⟨1, ![n0]⟩ : Shape).Idx} (h0 : (i 0).val = (i' 0).val) : i = i' := by
  funext a
  match a with
  | ⟨0, _⟩ => exact Fin.ext h0

/-- Two rank-2 indices with the same two coordinates are equal. -/
theorem ext2 {n0 n1 : Nat} {i i' : (⟨2, ![n0, n1]⟩ : Shape).Idx} (h0 : (i 0).val = (i' 0).val)
    (h1 : (i 1).val = (i' 1).val) : i = i' := by
  funext a
  match a with
  | ⟨0, _⟩ => exact Fin.ext h0
  | ⟨1, _⟩ => exact Fin.ext h1

/-- Two rank-3 indices with the same three coordinates are equal. -/
theorem ext3 {n0 n1 n2 : Nat} {i i' : (⟨3, ![n0, n1, n2]⟩ : Shape).Idx} (h0 : (i 0).val = (i' 0).val)
    (h1 : (i 1).val = (i' 1).val) (h2 : (i 2).val = (i' 2).val) : i = i' := by
  funext a
  match a with
  | ⟨0, _⟩ => exact Fin.ext h0
  | ⟨1, _⟩ => exact Fin.ext h1
  | ⟨2, _⟩ => exact Fin.ext h2

/-! ## A gather along the column axis, read at an index

Operand `[N, C]`, start indices `[T, 1]`, result `[N, T]`: result entry `(n, t)` is the operand's entry in row `n` at the
column the start index `idx[t, 0]` names, read signed and clamped into `[0, C − 1]`. -/

/-- The dimension numbers of a column gather: the row axis is the result's one offset axis and is taken whole, the column
    axis is collapsed and is the one the start index names. -/
abbrev colGatherDims (N C T : Nat)
    (wf : GatherDims.WF ⟨2, ![N, C]⟩ ⟨2, ![T, 1]⟩ ⟨2, ![N, T]⟩ [0] [1] [] [1] [] 1 ![N, 1]) :
    GatherDims ⟨2, ![N, C]⟩ ⟨2, ![T, 1]⟩ ⟨2, ![N, T]⟩ where
  offsetDims := [0]
  collapsedSliceDims := [1]
  operandBatchingDims := []
  startIndicesBatchingDims := []
  startIndexMap := [1]
  indexVectorDim := 1
  sliceSizes := ![N, 1]
  wf := wf

section Gather
variable {N C T w : Nat}
  (wf : GatherDims.WF ⟨2, ![N, C]⟩ ⟨2, ![T, 1]⟩ ⟨2, ![N, T]⟩ [0] [1] [] [1] [] 1 ![N, 1])

/-- Result position `(n, t)` reads its start index at `(t, 0)`: the result's one batch axis (axis 1) supplies the
    indices' axis 0, and the index vector (axis 1, of extent 1) has only the component `0`. -/
theorem colGather_siIdx (n : Fin N) (t : Fin T) (c : Fin (colGatherDims N C T wf).startIndexMap.length) :
    (colGatherDims N C T wf).siIdx (ix2 n t) c = ix2 t (0 : Fin 1) := by
  funext b
  refine Fin.ext ?_
  match b with
  | ⟨0, _⟩ => rfl
  | ⟨1, _⟩ =>
    have hc : c.val < 1 := c.isLt
    show c.val = 0
    omega

/-- On the column axis the slice starts at the start index read signed and clamped into `[0, C - 1]`: the axis is the one
    the start index map names, and the slice there has one column. -/
theorem colGather_col_start (idx : IVec ⟨2, ![T, 1]⟩ w) (n : Fin N) (t : Fin T) :
    (colGatherDims N C T wf).start (ix2 n t) idx 1 = min (idx (ix2 t (0 : Fin 1))).toInt.toNat (C - 1) := by
  unfold GatherDims.start
  rw [dif_pos (show (1 : Fin 2) ∈ (colGatherDims N C T wf).startIndexMap from List.mem_singleton.mpr rfl),
    colGather_siIdx]
  rfl

/-- The column axis is collapsed, so the result gives it no offset. -/
theorem colGather_col_off (n : Fin N) (t : Fin T) : (colGatherDims N C T wf).offCoord (ix2 n t) 1 = 0 :=
  GatherDims.offCoord_eq_zero _ _ _ (fun h => ((GatherDims.mem_sKept _ _).mp h).1 (List.mem_singleton.mpr rfl))

/-- The row axis is not named by the start index map: its slice starts at `0`. -/
theorem colGather_row_start (idx : IVec ⟨2, ![T, 1]⟩ w) (n : Fin N) (t : Fin T) :
    (colGatherDims N C T wf).start (ix2 n t) idx 0 = 0 := by
  unfold GatherDims.start
  rw [dif_neg]
  intro h
  exact absurd (congrArg Fin.val (List.mem_singleton.mp h)) Nat.zero_ne_one

/-- The row axis is the operand's one kept axis, read by the result's one offset axis (axis 0): the offset is `n`. -/
theorem colGather_row_off (n : Fin N) (t : Fin T) :
    (colGatherDims N C T wf).offCoord (ix2 n t) 0 = n.val := rfl

end Gather

/-- THE COLUMN GATHER READ AT `(n, t)`: the operand in row `n` at column `idx[t, 0]` (read signed, clamped into
    `[0, C − 1]`). -/
theorem colGather_apply {α : Type} {N C T w : Nat} (hC : 0 < C)
    (wf : GatherDims.WF ⟨2, ![N, C]⟩ ⟨2, ![T, 1]⟩ ⟨2, ![N, T]⟩ [0] [1] [] [1] [] 1 ![N, 1])
    (x : (⟨2, ![N, C]⟩ : Shape).Idx → α) (idx : IVec ⟨2, ![T, 1]⟩ w) (n : Fin N) (t : Fin T) :
    Host.gather (colGatherDims N C T wf) x idx (ix2 n t)
      = x (ix2 n (⟨min (idx (ix2 t (0 : Fin 1))).toInt.toNat (C - 1), by omega⟩ : Fin C)) := by
  -- the operand position's coordinate on each axis is slice start + batching coordinate + offset;
  -- there is no batching axis, so the middle term is 0 on both axes
  have hb : ∀ a, (colGatherDims N C T wf).batchCoord (ix2 n t) a = 0 :=
    fun a => GatherDims.batchCoord_eq_zero _ _ a List.not_mem_nil
  unfold Host.gather
  congr 1
  funext a
  refine Fin.ext ?_
  match a with
  | ⟨0, _⟩ =>
    -- row axis: 0 + 0 + n
    show (colGatherDims N C T wf).start (ix2 n t) idx 0 + (colGatherDims N C T wf).batchCoord (ix2 n t) 0
        + (colGatherDims N C T wf).offCoord (ix2 n t) 0 = n.val
    rw [hb, colGather_row_off, colGather_row_start]
    omega
  | ⟨1, _⟩ =>
    -- column axis: clamped start index + 0 + 0
    show (colGatherDims N C T wf).start (ix2 n t) idx 1 + (colGatherDims N C T wf).batchCoord (ix2 n t) 1
        + (colGatherDims N C T wf).offCoord (ix2 n t) 1 = min (idx (ix2 t (0 : Fin 1))).toInt.toNat (C - 1)
    rw [hb, colGather_col_off, colGather_col_start]
    rfl

/-- A natural number below `2 ^ 31` written as a 32-bit word reads back, signed, as itself. -/
theorem toInt_ofNat_small (l : Nat) (hl : l < 2147483648) : (BitVec.ofNat 32 l).toInt = (l : Int) := by
  rw [BitVec.toInt_eq_toNat_of_lt (by rw [BitVec.toNat_ofNat, Nat.mod_eq_of_lt (by omega)]; omega),
    BitVec.toNat_ofNat, Nat.mod_eq_of_lt (by omega)]

/-- Such a word is not below zero as a signed number. -/
theorem slt_zero_ofNat_small (l : Nat) (hl : l < 2147483648) : IntOp.cmpi .slt (BitVec.ofNat 32 l) 0#32 = 0#1 := by
  show BitVec.ofBool ((BitVec.ofNat 32 l).slt 0#32) = 0#1
  rw [BitVec.slt_eq_decide, toInt_ofNat_small l hl, BitVec.toInt_zero, decide_eq_false (by omega)]
  rfl

/-! ## Four one-column arrays joined along the column axis, read at an index -/

/-- Column `k` of the join is array `k`, at its only column. -/
theorem concat4_apply {α : Type} {N : Nat} (f0 f1 f2 f3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1)
    (n : Fin N) (k : Fin 4) :
    concatenate (⟨2, ![N, 4]⟩ : Shape) 1 [⟨⟨2, ![N, 1]⟩, f0⟩, ⟨⟨2, ![N, 1]⟩, f1⟩, ⟨⟨2, ![N, 1]⟩, f2⟩, ⟨⟨2, ![N, 1]⟩, f3⟩] h (ix2 n k)
      = (![f0, f1, f2, f3] k) (ix2 n (0 : Fin 1)) := by
  -- off the joined axis (the row axis) the piece is read at the same coordinate
  have hi : ∀ (k : Fin 4) (b : Fin (⟨2, ![N, 1]⟩ : Shape).rank), b.cast (rfl : (⟨2, ![N, 1]⟩ : Shape).rank = (⟨2, ![N, 4]⟩ : Shape).rank) ≠ (1 : Fin 2) →
      ((ix2 n (0 : Fin 1) : (⟨2, ![N, 1]⟩ : Shape).Idx) b).val = ((ix2 n k : (⟨2, ![N, 4]⟩ : Shape).Idx) (b.cast rfl)).val := by
    intro k b hb
    match b with
    | ⟨0, _⟩ => rfl
    | ⟨1, _⟩ => exact absurd rfl hb
  -- piece k spans column k alone: the k pieces before it have one column each
  match k with
  | ⟨0, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨0, hk⟩) 0 (show 0 < 4 by omega)
      ⟨2, ![N, 1]⟩ f0 rfl rfl 0 rfl (ix2 n (0 : Fin 1)) (hi _) rfl
  | ⟨1, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨1, hk⟩) 1 (show 1 < 4 by omega)
      ⟨2, ![N, 1]⟩ f1 rfl rfl 1 rfl (ix2 n (0 : Fin 1)) (hi _) rfl
  | ⟨2, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨2, hk⟩) 2 (show 2 < 4 by omega)
      ⟨2, ![N, 1]⟩ f2 rfl rfl 2 rfl (ix2 n (0 : Fin 1)) (hi _) rfl
  | ⟨3, hk⟩ =>
    exact concatenate_apply_piece (t := ⟨2, ![N, 4]⟩) (1 : Fin 2)
      [⟨⟨2, ![N, 1]⟩, f0⟩, ⟨⟨2, ![N, 1]⟩, f1⟩, ⟨⟨2, ![N, 1]⟩, f2⟩, ⟨⟨2, ![N, 1]⟩, f3⟩] h (ix2 n ⟨3, hk⟩) 3 (show 3 < 4 by omega)
      ⟨2, ![N, 1]⟩ f3 rfl rfl 3 rfl (ix2 n (0 : Fin 1)) (hi _) rfl

end Cert.LibColGather

end
-- ==== Proof.RefVal.lean ====
/-
  The reference's result read at an entry: over the edges whose destination word, read signed, is n, the sum of
  x[b, node(src e)] * (adj e * w e), plus the bias, clipped below at zero — the specification's refOut.
  The gather is a column gather of x by the wrapped source words (clamped into the nodes), the scatter an accumulating row
  scatter of the transposed messages by the destination words (out-of-range rows dropped), each read at an index.
-/
import proofs.«406251_j54657753809402_2_alg».proof.Proof.Gen.ReferenceIdeal.Read
import proofs.«406251_j54657753809402_2_alg».proof.Proof.LibIndex
import proofs.«406251_j54657753809402_2_alg».proof.Proof.LibColGather
import proofs.«406251_j54657753809402_2_alg».proof.Proof.Spec
import Idealize.ShloMosaic.PureOps.Ideal.Laws

noncomputable section

namespace Cert.RefVal

open Idealize.ShloMosaic Idealize.ShloMosaic.ValueIdx Cert.ReferenceIdeal Cert.ReferenceIdeal.Gen

/-! ## The dimension numbers of the two index-dependent operations -/

/-- The gather's dimension numbers are a column gather's: operand [64, 50000], start indices [1600000, 1]. -/
private theorem gatherDims_eq :
    gather_S64x50000_S1600000x1_S64x1600000_0_1_n_n_1_1_641
      = Cert.LibColGather.colGatherDims 64 50000 1600000
          Facts₀.gather_S64x50000_S1600000x1_S64x1600000_0_1_n_n_1_1_641_wf := rfl

/-- The scatter's dimension numbers are an accumulating row scatter's: operand [50000, 64], updates [1600000, 64]. -/
private theorem scatterDims_eq :
    scatter_S50000x64_S1600000x1_S1600000x64_1_0_0_1
      = Cert.LibIndex.rowScatterDims 50000 1600000 64
          Facts₀.scatter_S50000x64_S1600000x1_S1600000x64_1_0_0_1_wf := rfl

/-! ## Where the broadcasts and transposes read their operands -/

/-- The [1600000, 1] index array at (e, 0) reads the wrapped source words at e. -/
private theorem idx6_at (e : Fin 1600000) : Read.idx_main_v6 (ix2 e (0 : Fin 1)) = ix1 e := by
  funext a
  match a with
  | ⟨0, _⟩ => rfl

/-- The [1600000, 1] destination array at (e, 0) reads the destination words at e. -/
private theorem idx13_at (e : Fin 1600000) : Read.idx_main_v13 (ix2 e (0 : Fin 1)) = ix1 e := by
  funext a
  match a with
  | ⟨0, _⟩ => rfl

/-- The edge factors broadcast to [64, 1600000] read, at (b, e), the factor of edge e. -/
private theorem idx89_at (b : Fin 64) (e : Fin 1600000) :
    Read.idx_main_v8 (Read.idx_main_v9 (ix2 b e)) = ix1 e := by
  funext a
  match a with
  | ⟨0, _⟩ => rfl

/-- The transposed messages at (e, b) read the messages at (b, e). -/
private theorem idx11_at (e : Fin 1600000) (b : Fin 64) : Read.idx_main_v11 (ix2 e b) = ix2 b e := by
  funext a
  match a with
  | ⟨0, _⟩ => rfl
  | ⟨1, _⟩ => rfl

/-- The transposed scatter result at (b, n) reads the scatter result at (n, b). -/
private theorem idx15_at (b : Fin 64) (n : Fin 50000) : Read.idx_main_v15 (ix2 b n) = ix2 n b := by
  funext a
  match a with
  | ⟨0, _⟩ => rfl
  | ⟨1, _⟩ => rfl

/-- The bias broadcast to [64, 50000] reads, at (b, n), the bias of node n. -/
private theorem idx1617_at (b : Fin 64) (n : Fin 50000) :
    Read.idx_main_v16 (Read.idx_main_v17 (ix2 b n)) = ix1 n := by
  funext a
  match a with
  | ⟨0, _⟩ => rfl

/-! ## The operations, one stage at a time -/

/-- The wrapped source word of edge e: a word that is negative as a signed number is raised by 50000. -/
private theorem v5_at (x4 : IVec S1600000 32) (e : Fin 1600000) :
    Read.val_main_v5 (F := Ideal) x4 (ix1 e)
      = if (x4 (ix1 e)).slt 0#32 then x4 (ix1 e) + 50000#32 else x4 (ix1 e) := by
  rw [Read.val_main_v5_apply, Read.val_main_v2_apply, Read.val_main_v4_apply, Read.val_main_v1_apply,
    Read.val_main_v3_apply, Read.val_main_c_apply, Read.val_main_c_0_apply]
  show Scalar.select (BitVec.ofBool ((x4 (ix1 e)).slt 0#32)) (x4 (ix1 e) + 50000#32) (x4 (ix1 e)) = _
  cases h : (x4 (ix1 e)).slt 0#32
  · rw [if_neg Bool.false_ne_true]
    exact select_zero _ _
  · rw [if_pos rfl]
    exact select_one _ _

/-- The gathered feature of edge e in row b: x at the node the source word names (the wrapped word read signed and
    clamped into the 50000 nodes). -/
private theorem v7_at (x0 : FVec Ideal S64x50000 .f32) (x4 : IVec S1600000 32) (b : Fin 64) (e : Fin 1600000) :
    Read.val_main_v7 (F := Ideal) x0 x4 (ix2 b e) = x0 (ix2 b (Cert.Spec.srcNode (x4 (ix1 e)))) := by
  unfold Read.val_main_v7
  rw [gatherDims_eq, Cert.LibColGather.colGather_apply (show 0 < 50000 by norm_num)]
  -- the two columns are the same number: the clamp of the same wrapped word
  refine congrArg (fun k => x0 (ix2 b k)) (Fin.ext ?_)
  show min (Read.val_main_v6 (F := Ideal) x4 (ix2 e (0 : Fin 1))).toInt.toNat 49999
    = min (if (x4 (ix1 e)).slt 0#32 then x4 (ix1 e) + 50000#32 else x4 (ix1 e)).toInt.toNat 49999
  rw [Read.val_main_v6_apply, idx6_at, v5_at]

/-- The edge factor, the same in every row: adj e * w e. -/
private theorem v9_at (x1 x2 : FVec Ideal S1600000 .f32) (b : Fin 64) (e : Fin 1600000) :
    Read.val_main_v9 (F := Ideal) x1 x2 (ix2 b e) = x1 (ix1 e) * x2 (ix1 e) := by
  rw [Read.val_main_v9_apply, Read.val_main_v8_apply, idx89_at, Read.val_main_v0_apply]
  rfl

/-- The transposed message of edge e at row b: the gathered feature times the edge factor. -/
private theorem v11_at (x0 : FVec Ideal S64x50000 .f32) (x1 x2 : FVec Ideal S1600000 .f32) (x4 : IVec S1600000 32)
    (e : Fin 1600000) (b : Fin 64) :
    Read.val_main_v11 (F := Ideal) x0 x1 x2 x4 (ix2 e b)
      = x0 (ix2 b (Cert.Spec.srcNode (x4 (ix1 e)))) * (x1 (ix1 e) * x2 (ix1 e)) := by
  rw [Read.val_main_v11_apply, idx11_at, Read.val_main_v10_apply, v7_at, v9_at]
  rfl

/-- The scatter's operand is zero everywhere. -/
private theorem v12_at (i : S50000x64.Idx) : Read.val_main_v12 (F := Ideal) i = 0 := by
  rw [Read.val_main_v12_apply, Read.val_main_cst_apply]
  exact Ideal.ofBits_zero_f32

/-- The scatter's start index of edge e is its destination word. -/
private theorem v13_at (x5 : IVec S1600000 32) (e : Fin 1600000) :
    Read.val_main_v13 (F := Ideal) x5 (ix2 e (0 : Fin 1)) = x5 (ix1 e) := by
  rw [Read.val_main_v13_apply, idx13_at]

/-- At the extended reals the accumulating scatter is the exact sum. -/
private theorem scatterAdd_ideal {s si u : Shape} {w : Nat} (d : ScatterDims s si u) (x : FVec Ideal s .f32)
    (idx : IVec si w) (upd : FVec Ideal u .f32) :
    Host.scatterAdd d x idx upd = Ideal.hostScatterAdd d x idx upd := rfl

/-- The scatter's result is the accumulating scatter of the transposed messages into the zero array by the destination
    words. -/
private theorem v14_def (x0 : FVec Ideal S64x50000 .f32) (x1 x2 : FVec Ideal S1600000 .f32) (x4 x5 : IVec S1600000 32) :
    Read.val_main_v14 (F := Ideal) x0 x1 x2 x4 x5
      = Host.scatterAdd (F := Ideal) (φ := .f32) scatter_S50000x64_S1600000x1_S1600000x64_1_0_0_1
          (Read.val_main_v12 (F := Ideal)) (Read.val_main_v13 (F := Ideal) x5)
          (Read.val_main_v11 (F := Ideal) x0 x1 x2 x4) := rfl

/-- The scatter at (n, b): zero plus the messages of the edges whose destination word, read signed, is n. -/
private theorem v14_at (x0 : FVec Ideal S64x50000 .f32) (x1 x2 : FVec Ideal S1600000 .f32) (x4 x5 : IVec S1600000 32)
    (n : Fin 50000) (b : Fin 64) :
    Read.val_main_v14 (F := Ideal) x0 x1 x2 x4 x5 (ix2 n b)
      = 0 + ∑ e ∈ Finset.univ.filter (fun e : Fin 1600000 => (x5 (ix1 e)).toInt = (n.val : Int)),
          x0 (ix2 b (Cert.Spec.srcNode (x4 (ix1 e)))) * (x1 (ix1 e) * x2 (ix1 e)) := by
  rw [v14_def, scatterAdd_ideal, scatterDims_eq, Cert.LibIndex.rowScatterAdd_apply, v12_at]
  -- the same edges are summed (the start index of edge t is its destination word), and each term is the message
  refine congrArg (fun s => (0 : EReal) + s) ?_
  exact Finset.sum_congr (Finset.filter_congr fun t _ => by rw [v13_at]) (fun t _ => v11_at x0 x1 x2 x4 t b)

/-- THE REFERENCE AT (b, n) is the specification's refOut of the arguments read as index functions. -/
theorem ref_apply (x0 : FVec Ideal S64x50000 .f32) (x1 x2 : FVec Ideal S1600000 .f32) (x3 : FVec Ideal S50000 .f32)
    (x4 x5 : IVec S1600000 32) (b : Fin 64) (n : Fin 50000) :
    Cert.ReferenceIdeal.Read.val_main_v19 (F := Ideal) x0 x1 x2 x3 x4 x5 (ix2 b n)
      = Cert.Spec.refOut (fun b n => x0 (ix2 b n)) (fun e => x1 (ix1 e)) (fun e => x2 (ix1 e)) (fun n => x3 (ix1 n))
          (fun e => x4 (ix1 e)) (fun e => x5 (ix1 e)) b n := by
  -- the maximum with zero of: the transposed scatter result at (n, b) plus the bias of node n
  rw [Read.val_main_v19_apply, Read.val_main_v18_apply, Read.val_main_v15_apply, idx15_at, v14_at,
    Read.val_main_v17_apply, Read.val_main_v16_apply, idx1617_at, Read.val_main_call0_v0_apply,
    Read.val_main_call0_cst_apply, Ideal.maximumf_def, Ideal.addf_def, Ideal.ofBits_def, Ideal.ofBits_zero_f32]
  rfl

end Cert.RefVal

end
-- ==== Proof.Bridge.lean ====
/-
  The two results are one function of the inputs when every source word names a node.

  With 0 ≤ src e < 50000 the reference's wrap-and-clamp leaves the word's own value, and the kernel's 0/1 matrix of source
  words has exactly one 1 in each edge's column, at that node, so the gathered feature is x[b, src e]; a padded edge has
  factor 0 * 0 = 0 and contributes nothing; and the 0/1 matrix of destination words selects, for node n, exactly the edges
  whose destination word read signed is n (a node number below 50176 is below 2^31). The sums over half, step and position
  in the block are one sum over the padded edges, re-indexed.
-/
import proofs.«406251_j54657753809402_2_alg».proof.Proof.Spec
import Mathlib.Algebra.BigOperators.Fin
import Mathlib.Algebra.BigOperators.Group.Finset.Basic
import Mathlib.Data.Fintype.BigOperators
import Mathlib.Logic.Equiv.Fin.Basic
import Mathlib.Data.EReal.Basic

noncomputable section

namespace Cert.Spec

open Idealize.ShloMosaic

/-! ### Re-indexing the three nested sums as one sum over the padded edges -/

/-- The two halves of 782 steps run through the 1564 blocks once each: (c, i) ↦ 782 * c + i is a bijection. -/
private theorem sum_halves (f : Fin 1564 → EReal) :
    ∑ c : Fin 2, ∑ i : Fin 782, f (blockIdx c i) = ∑ j : Fin 1564, f j := by
  rw [← Fintype.sum_prod_type' (fun c i => f (blockIdx c i))]
  refine Fintype.sum_equiv (finProdFinEquiv (m := 2) (n := 782)) _ _ (fun p => ?_)
  congr 1
  apply Fin.ext
  simp only [blockIdx, finProdFinEquiv_apply_val]
  omega

/-- The 1564 blocks of 1024 entries run through the 1601536 padded edges once each: (j, e) ↦ 1024 * j + e is a
    bijection. -/
private theorem sum_blocks (g : Fin 1601536 → EReal) :
    ∑ j : Fin 1564, ∑ e : Fin 1024, blockOf g j e = ∑ p : Fin 1601536, g p := by
  rw [← Fintype.sum_prod_type' (fun j e => blockOf g j e)]
  refine Fintype.sum_equiv (finProdFinEquiv (m := 1564) (n := 1024)) _ _ (fun p => ?_)
  unfold blockOf
  congr 1
  apply Fin.ext
  simp only [finProdFinEquiv_apply_val]
  omega

/-- A padded array that vanishes on the 1536 padding entries sums to the sum of its 1600000 real entries. -/
private theorem sum_pad (G : Fin 1600000 → EReal) :
    ∑ p : Fin 1601536, (if h : p.val < 1600000 then G ⟨p.val, h⟩ else 0) = ∑ e : Fin 1600000, G e := by
  have key := Fin.sum_trunc (M := EReal) (a := 1600000) (b := 1536)
    (fun p => if h : p.val < 1600000 then G ⟨p.val, h⟩ else 0)
    (fun j => by
      have hj : ¬ (Fin.natAdd 1600000 j).val < 1600000 := by simp only [Fin.val_natAdd]; omega
      exact dif_neg hj)
  refine key.trans ?_
  apply Finset.sum_congr rfl
  intro e _
  have he : (Fin.castAdd 1536 e).val < 1600000 := by simp only [Fin.val_castAdd]; exact e.isLt
  exact dif_pos he

/-! ### Words -/

/-- Below 2^32 the 0/1 entry tests the word's value as a natural number. -/
private theorem hot_eq_ite (v : BitVec 32) (m : ℕ) (hm : m < 2 ^ 32) :
    hot v m = if v.toNat = m then 1 else 0 := by
  have h : (v = BitVec.ofNat 32 m) ↔ v.toNat = m := by
    constructor
    · intro h; rw [h, BitVec.toNat_ofNat, Nat.mod_eq_of_lt hm]
    · intro h; apply BitVec.eq_of_toNat_eq; rw [BitVec.toNat_ofNat, Nat.mod_eq_of_lt hm, h]
  unfold hot
  simp only [h]

/-- A word whose signed value lies in [0, 50000) has that value as its unsigned value. -/
private theorem toNat_of_range (v : BitVec 32) (h0 : 0 ≤ v.toInt) (h1 : v.toInt < 50000) :
    v.toNat < 50000 ∧ v.toInt = (v.toNat : Int) := by
  have hc := BitVec.toInt_eq_toNat_cond v
  have := v.isLt
  split at hc <;> omega

/-- For a node number n below 50000, a word has unsigned value n exactly when its signed value is n. -/
private theorem toNat_eq_iff_toInt_eq (d : BitVec 32) (n : ℕ) (hn : n < 50000) :
    d.toNat = n ↔ d.toInt = (n : Int) := by
  have hc := BitVec.toInt_eq_toNat_cond d
  have := d.isLt
  split at hc <;> omega

/-- The 0/1 entry of a destination word at a node n below 50000 tests the word's signed value. -/
private theorem hot_dst (d : BitVec 32) (n : ℕ) (hn : n < 50000) :
    hot d n = if d.toInt = (n : Int) then 1 else 0 := by
  rw [hot_eq_ite d n (by omega)]
  simp only [toNat_eq_iff_toInt_eq d n hn]

/-- The column of the 0/1 matrix of a source word in range has its single 1 at the word's value, so the product with the
    padded features reads the feature of that node. -/
private theorem gather_eq (x : Fin 64 → Fin 50000 → EReal) (b : Fin 64) (v : BitVec 32) (hv : v.toNat < 50000) :
    ∑ m : Fin 50176, xPad x b m * hot v m.val = x b ⟨v.toNat, hv⟩ := by
  rw [Finset.sum_eq_single (⟨v.toNat, by omega⟩ : Fin 50176)]
  · rw [hot_eq_ite v _ (by show v.toNat < 2 ^ 32; omega), if_pos rfl, mul_one]
    unfold xPad
    exact dif_pos hv
  · intro m _ hne
    rw [hot_eq_ite v _ (by have := m.isLt; omega), if_neg, mul_zero]
    intro h
    exact hne (Fin.ext h.symm)
  · intro h
    exact absurd (Finset.mem_univ _) h

/-- A source word in range is not negative, so the reference neither raises nor clamps it. -/
private theorem srcNode_eq (v : BitVec 32) (h0 : 0 ≤ v.toInt) (hv : v.toNat < 50000)
    (hi : v.toInt = (v.toNat : Int)) : srcNode v = ⟨v.toNat, hv⟩ := by
  have hs : v.slt 0#32 = false := by
    rw [BitVec.slt_eq_decide, BitVec.toInt_zero]
    exact decide_eq_false (by omega)
  unfold srcNode
  apply Fin.ext
  simp only [hs, Bool.false_eq_true, if_false, hi, Int.toNat_natCast]
  omega

/-- Multiplying by the 0/1 entries of the destination words and summing is summing over the selected edges. -/
private theorem sum_select (t : Fin 1600000 → EReal) (dst : Fin 1600000 → BitVec 32) (n : ℕ) (hn : n < 50000) :
    ∑ e : Fin 1600000, t e * hot (dst e) n
      = ∑ e ∈ Finset.univ.filter (fun e : Fin 1600000 => (dst e).toInt = (n : Int)), t e := by
  rw [Finset.sum_filter]
  apply Finset.sum_congr rfl
  intro e _
  rw [hot_dst _ n hn]
  split
  · rw [mul_one]
  · rw [mul_zero]

/-! ### The term of one padded edge -/

/-- What a padded edge p contributes to node n: the gathered feature, times the edge's padded factors, times the 0/1
    entry of its padded destination word. -/
private def padTerm (x : Fin 64 → Fin 50000 → EReal) (adj w : Fin 1600000 → EReal) (src dst : Fin 1600000 → BitVec 32)
    (b : Fin 64) (n : ℕ) (p : Fin 1601536) : EReal :=
  ((∑ m : Fin 50176, xPad x b m * hot (wordPad src p) m.val) * (realPad adj p * realPad w p)) * hot (wordPad dst p) n

/-- What a real edge e contributes to node n. -/
private def realTerm (x : Fin 64 → Fin 50000 → EReal) (adj w : Fin 1600000 → EReal) (src dst : Fin 1600000 → BitVec 32)
    (b : Fin 64) (n : ℕ) (e : Fin 1600000) : EReal :=
  (x b (srcNode (src e)) * (adj e * w e)) * hot (dst e) n

/-- A block's contribution is the sum of its 1024 padded edges' terms. -/
private theorem partOf_eq (x : Fin 64 → Fin 50000 → EReal) (adj w : Fin 1600000 → EReal)
    (src dst : Fin 1600000 → BitVec 32) (j : Fin 1564) (b : Fin 64) (n : Fin 50176) :
    partOf x adj w src dst j b n = ∑ e : Fin 1024, blockOf (padTerm x adj w src dst b n.val) j e := rfl

/-- A padding edge has factor 0 * 0 and contributes nothing; a real edge with its source word in range contributes the
    reference's term. -/
private theorem padTerm_eq (x : Fin 64 → Fin 50000 → EReal) (adj w : Fin 1600000 → EReal)
    (src dst : Fin 1600000 → BitVec 32) (hsrc : ∀ e, 0 ≤ (src e).toInt ∧ (src e).toInt < 50000)
    (b : Fin 64) (n : ℕ) (p : Fin 1601536) :
    padTerm x adj w src dst b n p
      = if h : p.val < 1600000 then realTerm x adj w src dst b n ⟨p.val, h⟩ else 0 := by
  unfold padTerm
  by_cases h : p.val < 1600000
  · obtain ⟨hv, hi⟩ := toNat_of_range (src ⟨p.val, h⟩) (hsrc _).1 (hsrc _).2
    have hws : wordPad src p = src ⟨p.val, h⟩ := dif_pos h
    have hwd : wordPad dst p = dst ⟨p.val, h⟩ := dif_pos h
    have hra : realPad adj p = adj ⟨p.val, h⟩ := dif_pos h
    have hrw : realPad w p = w ⟨p.val, h⟩ := dif_pos h
    rw [dif_pos h, hws, hwd, hra, hrw, gather_eq x b _ hv]
    unfold realTerm
    rw [srcNode_eq _ (hsrc _).1 hv hi]
  · have hra : realPad adj p = 0 := dif_neg h
    have hrw : realPad w p = 0 := dif_neg h
    rw [dif_neg h, hra, hrw, mul_zero, mul_zero, zero_mul]

/-! ### The two sums -/

/-- The kernel's sum over halves, steps and block positions is the reference's sum over the edges whose destination is n. -/
private theorem kernelSum_eq (x : Fin 64 → Fin 50000 → EReal) (adj w : Fin 1600000 → EReal)
    (src dst : Fin 1600000 → BitVec 32) (hsrc : ∀ e, 0 ≤ (src e).toInt ∧ (src e).toInt < 50000)
    (b : Fin 64) (n : Fin 50000) (hn : n.val < 50176) :
    ∑ c : Fin 2, halfSum x adj w src dst c b ⟨n.val, hn⟩
      = ∑ e ∈ Finset.univ.filter (fun e : Fin 1600000 => (dst e).toInt = (n.val : Int)),
          x b (srcNode (src e)) * (adj e * w e) := by
  unfold halfSum
  rw [sum_halves (fun j => partOf x adj w src dst j b ⟨n.val, hn⟩)]
  simp only [partOf_eq]
  rw [sum_blocks]
  simp only [padTerm_eq x adj w src dst hsrc]
  rw [sum_pad]
  exact sum_select _ dst n.val n.isLt

/-- THE BRIDGE: under the source words' range the kernel's result is the reference's. -/
theorem kernelOut_eq_refOut (x : Fin 64 → Fin 50000 → EReal) (adj w : Fin 1600000 → EReal) (bias : Fin 50000 → EReal)
    (src dst : Fin 1600000 → BitVec 32)
    (hsrc : ∀ e, 0 ≤ (src e).toInt ∧ (src e).toInt < 50000) :
    kernelOut x adj w bias src dst = refOut x adj w bias src dst := by
  funext b n
  unfold kernelOut refOut
  rw [kernelSum_eq x adj w src dst hsrc b n]

end Cert.Spec

end
-- ==== Proof.PreDecode.lean ====
/-
  Reading the precondition: every float input is finite and every source word, read signed, is a node number.
  The printed predicate is a conjunction of six all-reductions; the last two say 0 ≤ src e and src e < 50000 for every e.
-/
import proofs.«406251_j54657753809402_2_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

variable [Cert.Pre_finite_inputs.Facts]

/-- The rank-0 shape has a single index, so an all-reduction into it reads back at every operand index. -/
private instance : Subsingleton S_.Idx := ⟨fun a b => funext fun d => d.elim0⟩

/-- Under the precondition every source word, read as a signed integer, lies in [0, 50000). -/
theorem src_range (a0 : FVec Ideal S64x50000 .f32) (a1 a2 : FVec Ideal S1600000 .f32) (a3 : FVec Ideal S50000 .f32)
    (a4 a5 : IVec S1600000 32)
    (h : Cert.Pre_finite_inputs.fn (F := Ideal) a0 a1 a2 a3 a4 a5 = fun _ => 1#1) (e : Fin 1600000) :
    0 ≤ (a4 (ix1 e)).toInt ∧ (a4 (ix1 e)).toInt < 50000 := by
  have h0 := congrFun h ix0
  dsimp only [fn, fn_part1] at h0
  -- the predicate is a left-nested conjunction of six words; the outer two are the all-reductions
  -- of the comparisons 0 ≤ src and src < 50000, the four before them are not needed here
  obtain ⟨h1, hlt⟩ := IntOp.andi_eq_one.1 h0
  obtain ⟨-, hge⟩ := IntOp.andi_eq_one.1 h1
  -- an all-reduction by "and" that is 1 had a 1 at every operand index, in particular at e
  have hge' := Host.reduce_andi_all _ _ _ _ _ hge (ix1 e)
  have hlt' := Host.reduce_andi_all _ _ _ _ _ hlt (ix1 e)
  -- a signed compare at an index compares the two words read signed; a splat read anywhere is its literal
  have hge'' : (0#32 : BitVec 32).toInt ≤ (a4 (ix1 e)).toInt := IntOp.cmpi_sge.1 hge'
  have hlt'' : (a4 (ix1 e)).toInt < (50000#32 : BitVec 32).toInt := IntOp.cmpi_slt.1 hlt'
  have z : (0#32 : BitVec 32).toInt = 0 := by decide
  have k : (50000#32 : BitVec 32).toInt = 50000 := by decide
  rw [z] at hge''
  rw [k] at hlt''
  exact ⟨hge'', hlt''⟩

end Cert.PreDecode

end
-- ==== Proof.lean ====
/-
  A graph message-passing layer: out[b, n] = max(Σ over the edges e with dst e = n of adj e · w e · x[b, src e] + bias n, 0),
  for 64 feature rows, 50000 nodes and 1600000 edges.

  The reference gathers the source columns of x, scales them by adj · w, sums them into their destination nodes with an
  accumulating scatter, adds the bias and clips at zero. The kernel pads nodes and edges with zeros, cuts the edges into
  1564 blocks of 1024, and per block computes the gather as a product of the padded features with the 0/1 matrix "source word
  of edge e is node n", scales by adj · w, and computes the block's contribution to every node as a product with the 0/1
  matrix of the destination words; the contributions are summed per half of the blocks, the two halves are added, the padded
  nodes dropped, the bias added and the result clipped at zero.

  Over the extended reals (every float operation exact, a change of float format the identity) the two results are one
  function of the inputs as soon as every source word is a node number, 0 ≤ src e < 50000: then the selection matrix has
  exactly one 1 per edge, at the source node, so the first product IS the gather; a padded edge has factor 0 · 0 and adds
  nothing; and the second product selects, for node n, exactly the edges whose destination word read as a signed integer is n,
  which is what the scatter keeps (an out-of-range destination is dropped by both). Sums over blocks, halves and positions are
  re-indexed freely, addition of extended reals being commutative and associative. Outside that range the reference wraps
  and clamps the source word while the selection matrix has no 1, so the range is part of the precondition.

  The frames are the generated ones; the idealization rewrote nothing, so there is nothing to preserve.
-/
import proofs.«406251_j54657753809402_2_alg».proof.Defs
import proofs.«406251_j54657753809402_2_alg».proof.Proof.Gen.Kernel
import proofs.«406251_j54657753809402_2_alg».proof.Proof.Gen.Kernel.Frame
import proofs.«406251_j54657753809402_2_alg».proof.Proof.Gen.KernelIdeal
import proofs.«406251_j54657753809402_2_alg».proof.Proof.Gen.KernelIdeal.Frame
import proofs.«406251_j54657753809402_2_alg».proof.Proof.Gen.ReferenceIdeal
import proofs.«406251_j54657753809402_2_alg».proof.Proof.Gen.ReferenceIdeal.Run
import proofs.«406251_j54657753809402_2_alg».proof.Proof.Gen.ReferenceIdeal.Read
import proofs.«406251_j54657753809402_2_alg».proof.Proof.Gen.Pre_finite_inputs
import proofs.«406251_j54657753809402_2_alg».proof.Proof.KFinal
import proofs.«406251_j54657753809402_2_alg».proof.Proof.RefVal
import proofs.«406251_j54657753809402_2_alg».proof.Proof.Bridge
import proofs.«406251_j54657753809402_2_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The three programs run, fault-free, leaving their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- THE TWO RESULTS AGREE: under the precondition, on arguments that agree, the reference's result array is the kernel's. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KTail.tailOut m c := by
  funext j
  obtain ⟨b, n, rfl⟩ : ∃ (b : Fin 64) (n : Fin 50000), j = ix2 b n := ⟨j 0, j 1, eq_ix2 j⟩
  have hsrc : ∀ e : Fin 1600000, 0 ≤ (Cert.KIn.aSrc m c e).toInt ∧ (Cert.KIn.aSrc m c e).toInt < 50000 :=
    fun e => Cert.PreDecode.src_range _ _ _ _ _ _ (hpre c) e
  rw [Cert.RefVal.ref_apply, Cert.KFinal.kernel_apply,
    Cert.Spec.kernelOut_eq_refOut _ _ _ _ _ _ hsrc]
  rfl

/-- At the ideal instance the kernel ends with its result array at the specification's function of the arguments (the frame
    run, the region's output array, the host's tail), and the reference at the same function (its run, read at an index). -/
theorem algebraic : Cert.algebraic_KernelIdeal_ReferenceIdeal := by
  intro m ρ m' ρ' hpre hagree
  refine ⟨fun c => Cert.KTail.tailOut m c, ?_, ?_⟩
  · refine (θ_run Cert.KernelIdeal.defs _ _).mono (fun r h c => ⟨?_, ?_, ?_, ?_, ?_, ?_, ?_⟩) (Cert.KernelIdeal.Gen.run_main m ρ)
    · exact (h c).2 Cert.KernelIdeal.main_v16 (Pipeline.mem_restRefs_of Cert.KernelIdeal.main_v16 (by decide) (by decide))
    · exact ((h c).2 Cert.KernelIdeal.main_arg0 (Pipeline.mem_restRefs_of Cert.KernelIdeal.main_arg0 (by decide) (by decide))).trans (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans (Cert.KernelIdeal.Gen.W_main_arg3 m (Cert.KernelIdeal.Gen.dats m) c)
    · exact ((h c).2 Cert.KernelIdeal.main_arg4 (Pipeline.mem_restRefs_of Cert.KernelIdeal.main_arg4 (by decide) (by decide))).trans (Cert.KernelIdeal.Gen.W_main_arg4 m (Cert.KernelIdeal.Gen.dats m) c)
    · exact ((h c).2 Cert.KernelIdeal.main_arg5 (Pipeline.mem_restRefs_of Cert.KernelIdeal.main_arg5 (by decide) (by decide))).trans (Cert.KernelIdeal.Gen.W_main_arg5 m (Cert.KernelIdeal.Gen.dats m) c)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [h0, h1, h2, h3, h4, h5]
    exact (Cert.ReferenceIdeal.Read.val_main_v19_eq _ _ _ _ _ _).trans (result_eq m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
